-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S384x128 : Shape := ⟨2, ![384, 128]⟩
abbrev S128 : Shape := ⟨1, ![128]⟩
abbrev S400000 : Shape := ⟨1, ![400000]⟩
abbrev S600000 : Shape := ⟨1, ![600000]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S384x128 .f32) (main_arg2 : FVec F S128 .f32) (main_arg3 : IVec S400000 32) (main_arg4 : IVec S400000 32) (main_arg5 : IVec S600000 32) (main_arg6 : IVec S600000 32) (main_arg7 : IVec S800000 32) (main_arg8 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S384x128 : Shape := ⟨2, ![384, 128]⟩
abbrev S128 : Shape := ⟨1, ![128]⟩
abbrev S400000 : Shape := ⟨1, ![400000]⟩
abbrev S600000 : Shape := ⟨1, ![600000]⟩
abbrev S800000 : Shape := ⟨1, ![800000]⟩
abbrev S_ : Shape := ⟨0, ![]⟩
abbrev S400000x1 : Shape := ⟨2, ![400000, 1]⟩
abbrev S400000x128 : Shape := ⟨2, ![400000, 128]⟩
abbrev S200000x128 : Shape := ⟨2, ![200000, 128]⟩
abbrev S400000x256 : Shape := ⟨2, ![400000, 256]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩
abbrev S100000x256 : Shape := ⟨2, ![100000, 256]⟩
abbrev S1x128 : Shape := ⟨2, ![1, 128]⟩
abbrev S128x128 : Shape := ⟨2, ![128, 128]⟩

abbrev nBuf : Space → Nat
  | .hbm => 41
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S384x128, .f32⟩
  | .hbm, ⟨2, _⟩ => ⟨S128, .f32⟩
  | .hbm, ⟨3, _⟩ => ⟨S400000, .i32⟩
  | .hbm, ⟨4, _⟩ => ⟨S400000, .i32⟩
  | .hbm, ⟨5, _⟩ => ⟨S600000, .i32⟩
  | .hbm, ⟨6, _⟩ => ⟨S600000, .i32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S400000, .i32⟩
  | .hbm, ⟨11, _⟩ => ⟨S400000, .i1⟩
  | .hbm, ⟨12, _⟩ => ⟨S_, .i32⟩
  | .hbm, ⟨13, _⟩ => ⟨S400000, .i32⟩
  | .hbm, ⟨14, _⟩ => ⟨S400000, .i32⟩
  | .hbm, ⟨15, _⟩ => ⟨S400000, .i32⟩
  | .hbm, ⟨16, _⟩ => ⟨S400000x1, .i32⟩
  | .hbm, ⟨17, _⟩ => ⟨S400000x128, .f32⟩
  | .hbm, ⟨18, _⟩ => ⟨S_, .f32⟩
  | .hbm, ⟨19, _⟩ => ⟨S200000x128, .f32⟩
  | .hbm, ⟨20, _⟩ => ⟨S400000x1, .i32⟩
  | .hbm, ⟨21, _⟩ => ⟨S200000x128, .f32⟩
  | .hbm, ⟨22, _⟩ => ⟨S_, .i32⟩
  | .hbm, ⟨23, _⟩ => ⟨S400000, .i32⟩
  | .hbm, ⟨24, _⟩ => ⟨S400000, .i1⟩
  | .hbm, ⟨25, _⟩ => ⟨S_, .i32⟩
  | .hbm, ⟨26, _⟩ => ⟨S400000, .i32⟩
  | .hbm, ⟨27, _⟩ => ⟨S400000, .i32⟩
  | .hbm, ⟨28, _⟩ => ⟨S400000, .i32⟩
  | .hbm, ⟨29, _⟩ => ⟨S400000x1, .i32⟩
  | .hbm, ⟨30, _⟩ => ⟨S400000x128, .f32⟩
  | .hbm, ⟨31, _⟩ => ⟨S400000x256, .f32⟩
  | .hbm, ⟨32, _⟩ => ⟨S_, .f32⟩
  | .hbm, ⟨33, _⟩ => ⟨S100000x256, .f32⟩
  | .hbm, ⟨34, _⟩ => ⟨S400000x1, .i32⟩
  | .hbm, ⟨35, _⟩ => ⟨S100000x256, .f32⟩
  | .hbm, ⟨36, _⟩ => ⟨S100000x128, .f32⟩
  | .hbm, ⟨37, _⟩ => ⟨S100000x128, .f32⟩
  | .hbm, ⟨38, _⟩ => ⟨S384x128, .bf16⟩
  | .hbm, ⟨39, _⟩ => ⟨S1x128, .f32⟩
  | .hbm, ⟨40, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x256, .f32⟩
  | .local _ .vmem, ⟨3, _⟩ => ⟨S5000x256, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S384x128, .bf16⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S5000x256_S5000x128_0_0 : ∀ a, (![0, 0] : Fin 2 → Nat) a + S5000x128.size a ≤ S5000x256.size a
  inb_S5000x256_S5000x128_0_128 : ∀ a, (![0, 128] : Fin 2 → Nat) a + S5000x128.size a ≤ S5000x256.size a
  bcast_S_S100000x256 : S_.BroadcastsInDim S100000x256 (![] : Fin 0 → Fin S100000x256.rank)
  slices_S100000x256_S100000x128_0_0 : S100000x256.Slices ![0, 0] S100000x128
  slices_S100000x256_S100000x128_0_128 : S100000x256.Slices ![0, 128] S100000x128
  bitsLt_bf16_f32 : FTy.bits .bf16 < FTy.bits .f32
  shapeCasts_S128_S1x128 : S128.ShapeCasts S1x128
  inb_S384x128_S384x128_0_0 : ∀ a, (![0, 0] : Fin 2 → Nat) a + S384x128.size a ≤ S384x128.size a
  h_S384x128 : 0 < S384x128.numel
  shapeCasts_S384x128_S384x128 : S384x128.ShapeCasts S384x128
  slices_S384x128_o0_0_S128x128 : S384x128.Slices ![0, 0] S128x128
  slices_S384x128_o128_0_S128x128 : S384x128.Slices ![128, 0] S128x128
  slices_S384x128_o256_0_S128x128 : S384x128.Slices ![256, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S400000x1_S400000x128_1_0_n_n_0_1_1128_wf : GatherDims.WF S100000x128 S400000x1 S400000x128 [1] [0] [] [0] [] 1 ![1, 128]
  scatter_S200000x128_S400000x1_S400000x128_1_0_0_1_wf : ScatterDims.WF S200000x128 S400000x1 S400000x128 [1] [0] [0] 1
  gather_S200000x128_S400000x1_S400000x128_1_0_n_n_0_1_1128_wf : GatherDims.WF S200000x128 S400000x1 S400000x128 [1] [0] [] [0] [] 1 ![1, 128]
  scatter_S100000x256_S400000x1_S400000x256_1_0_0_1_wf : ScatterDims.WF S100000x256 S400000x1 S400000x256 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S400000x128.size a
  hwx0_0 : ∀ i : grid0.Coords, EltTy.bits .f32 = 32 ∨ (Rect.block (s := S400000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S400000x256.size a
  hwx0_1 : ∀ i : grid0.Coords, EltTy.bits .f32 = 32 ∨ (Rect.block (s := S400000x256) S5000x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x128.size a ≤ S384x128.size a
  hwx1_3 : ∀ i : grid1.Coords, EltTy.bits .bf16 = 32 ∨ (Rect.block (s := S384x128) S384x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S384x128 : Shape := ⟨2, ![384, 128]⟩
abbrev S128 : Shape := ⟨1, ![128]⟩
abbrev S400000 : Shape := ⟨1, ![400000]⟩
abbrev S600000 : Shape := ⟨1, ![600000]⟩
abbrev S800000 : Shape := ⟨1, ![800000]⟩
abbrev S_ : Shape := ⟨0, ![]⟩
abbrev S400000x1 : Shape := ⟨2, ![400000, 1]⟩
abbrev S400000x128 : Shape := ⟨2, ![400000, 128]⟩
abbrev S200000x128 : Shape := ⟨2, ![200000, 128]⟩
abbrev S600000x1 : Shape := ⟨2, ![600000, 1]⟩
abbrev S600000x128 : Shape := ⟨2, ![600000, 128]⟩
abbrev S300000x128 : Shape := ⟨2, ![300000, 128]⟩
abbrev S800000x1 : Shape := ⟨2, ![800000, 1]⟩
abbrev S800000x128 : Shape := ⟨2, ![800000, 128]⟩
abbrev S200000 : Shape := ⟨1, ![200000]⟩
abbrev S200000x1 : Shape := ⟨2, ![200000, 1]⟩
abbrev S300000 : Shape := ⟨1, ![300000]⟩
abbrev S300000x1 : Shape := ⟨2, ![300000, 1]⟩
abbrev S100000x384 : Shape := ⟨2, ![100000, 384]⟩
abbrev S1x128 : Shape := ⟨2, ![1, 128]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S384x128, .f32⟩
  | 2 => ⟨S128, .f32⟩
  | 3 => ⟨S400000, .i32⟩
  | 4 => ⟨S400000, .i32⟩
  | 5 => ⟨S600000, .i32⟩
  | 6 => ⟨S600000, .i32⟩
  | 7 => ⟨S800000, .i32⟩
  | 8 => ⟨S800000, .i32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x128, .f32⟩
  | 18 => ⟨S_, .f32⟩
  | 19 => ⟨S200000x128, .f32⟩
  | 20 => ⟨S400000x1, .i32⟩
  | 21 => ⟨S200000x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S300000x128, .f32⟩
  | 33 => ⟨S600000x1, .i32⟩
  | 34 => ⟨S300000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S400000x128, .f32⟩
  | 46 => ⟨S800000x1, .i32⟩
  | 47 => ⟨S400000x128, .f32⟩
  | 48 => ⟨S_, .f32⟩
  | 49 => ⟨S200000, .f32⟩
  | 50 => ⟨S_, .f32⟩
  | 51 => ⟨S200000, .f32⟩
  | 52 => ⟨S200000, .f32⟩
  | 53 => ⟨S200000x1, .f32⟩
  | 54 => ⟨S200000x128, .f32⟩
  | 55 => ⟨S200000x128, .f32⟩
  | 56 => ⟨S200000x128, .f32⟩
  | 57 => ⟨S_, .f32⟩
  | 58 => ⟨S200000, .f32⟩
  | 59 => ⟨S200000x1, .f32⟩
  | 60 => ⟨S200000x128, .f32⟩
  | 61 => ⟨S200000x128, .f32⟩
  | 62 => ⟨S_, .f32⟩
  | 63 => ⟨S300000, .f32⟩
  | 64 => ⟨S_, .f32⟩
  | 65 => ⟨S300000, .f32⟩
  | 66 => ⟨S300000, .f32⟩
  | 67 => ⟨S300000x1, .f32⟩
  | 68 => ⟨S300000x128, .f32⟩
  | 69 => ⟨S300000x128, .f32⟩
  | 70 => ⟨S300000x128, .f32⟩
  | 71 => ⟨S_, .f32⟩
  | 72 => ⟨S300000, .f32⟩
  | 73 => ⟨S300000x1, .f32⟩
  | 74 => ⟨S300000x128, .f32⟩
  | 75 => ⟨S300000x128, .f32⟩
  | 76 => ⟨S_, .f32⟩
  | 77 => ⟨S400000, .f32⟩
  | 78 => ⟨S_, .f32⟩
  | 79 => ⟨S400000, .f32⟩
  | 80 => ⟨S400000, .f32⟩
  | 81 => ⟨S400000x1, .f32⟩
  | 82 => ⟨S400000x128, .f32⟩
  | 83 => ⟨S400000x128, .f32⟩
  | 84 => ⟨S400000x128, .f32⟩
  | 85 => ⟨S_, .f32⟩
  | 86 => ⟨S400000, .f32⟩
  | 87 => ⟨S400000x1, .f32⟩
  | 88 => ⟨S400000x128, .f32⟩
  | 89 => ⟨S400000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S300000x128, .f32⟩
  | 101 => ⟨S800000x1, .i32⟩
  | 102 => ⟨S300000x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S_, .f32⟩
  | 113 => ⟨S200000x128, .f32⟩
  | 114 => ⟨S600000x1, .i32⟩
  | 115 => ⟨S200000x128, .f32⟩
  | 116 => ⟨S_, .i32⟩
  | 117 => ⟨S400000, .i32⟩
  | 118 => ⟨S400000, .i1⟩
  | 119 => ⟨S_, .i32⟩
  | 120 => ⟨S400000, .i32⟩
  | 121 => ⟨S400000, .i32⟩
  | 122 => ⟨S400000, .i32⟩
  | 123 => ⟨S400000x1, .i32⟩
  | 124 => ⟨S400000x128, .f32⟩
  | 125 => ⟨S_, .f32⟩
  | 126 => ⟨S100000x128, .f32⟩
  | 127 => ⟨S400000x1, .i32⟩
  | _ => ⟨S100000x128, .f32⟩

abbrev hbmTy0_1 (i : Nat) : BufTy := match i % 128 with
  | 0 => ⟨S100000x128, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x128, .f32⟩
  | 10 => ⟨S_, .f32⟩
  | 11 => ⟨S100000x128, .f32⟩
  | 12 => ⟨S400000x1, .i32⟩
  | 13 => ⟨S100000x128, .f32⟩
  | 14 => ⟨S100000x384, .f32⟩
  | 15 => ⟨S100000x128, .f32⟩
  | 16 => ⟨S1x128, .f32⟩
  | 17 => ⟨S100000x128, .f32⟩
  | 18 => ⟨S100000x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_16 : Ref sig .tc := ⟨.hbm, 90, rfl⟩
abbrev main_v63 : Ref sig .tc := ⟨.hbm, 91, rfl⟩
abbrev main_v64 : Ref sig .tc := ⟨.hbm, 92, rfl⟩
abbrev main_c_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_19 : Ref sig .tc := ⟨.hbm, 103, rfl⟩
abbrev main_v73 : Ref sig .tc := ⟨.hbm, 104, rfl⟩
abbrev main_v74 : Ref sig .tc := ⟨.hbm, 105, rfl⟩
abbrev main_c_20 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_22 : Ref sig .tc := ⟨.hbm, 116, rfl⟩
abbrev main_v83 : Ref sig .tc := ⟨.hbm, 117, rfl⟩
abbrev main_v84 : Ref sig .tc := ⟨.hbm, 118, rfl⟩
abbrev main_c_23 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_24 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_25 : Ref sig .tc := ⟨.hbm, 129, rfl⟩
abbrev main_v93 : Ref sig .tc := ⟨.hbm, 130, rfl⟩
abbrev main_v94 : Ref sig .tc := ⟨.hbm, 131, rfl⟩
abbrev main_c_26 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_27 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_call0_v0 : Ref sig .tc := ⟨.hbm, 147, rfl⟩
abbrev main_call0_v1 : Ref sig .tc := ⟨.hbm, 148, rfl⟩
abbrev main_call0_cst : Ref sig .tc := ⟨.hbm, 149, rfl⟩
abbrev main_call0_v2 : Ref sig .tc := ⟨.hbm, 150, rfl⟩
abbrev main_call0_v3 : Ref sig .tc := ⟨.hbm, 151, rfl⟩
abbrev main_call0_cst_0 : Ref sig .tc := ⟨.hbm, 152, rfl⟩
abbrev main_call0_v4 : Ref sig .tc := ⟨.hbm, 153, rfl⟩
abbrev main_call0_v5 : Ref sig .tc := ⟨.hbm, 154, rfl⟩
abbrev main_v108 : Ref sig .tc := ⟨.hbm, 155, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S300000x128 : S_.BroadcastsInDim S300000x128 (![] : Fin 0 → Fin S300000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S400000x128 : S_.BroadcastsInDim S400000x128 (![] : Fin 0 → Fin S400000x128.rank)
  reducesTo_S200000x128_S200000_d1 : S200000x128.ReducesTo [1] S200000
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  reducesTo_S300000x128_S300000_d1 : S300000x128.ReducesTo [1] S300000
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  reducesTo_S400000x128_S400000_d1 : S400000x128.ReducesTo [1] S400000
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S400000x1_S400000x128_1_0_n_n_0_1_1128_wf : GatherDims.WF S100000x128 S400000x1 S400000x128 [1] [0] [] [0] [] 1 ![1, 128]
  scatter_S200000x128_S400000x1_S400000x128_1_0_0_1_wf : ScatterDims.WF S200000x128 S400000x1 S400000x128 [1] [0] [0] 1
  gather_S200000x128_S600000x1_S600000x128_1_0_n_n_0_1_1128_wf : GatherDims.WF S200000x128 S600000x1 S600000x128 [1] [0] [] [0] [] 1 ![1, 128]
  scatter_S300000x128_S600000x1_S600000x128_1_0_0_1_wf : ScatterDims.WF S300000x128 S600000x1 S600000x128 [1] [0] [0] 1
  gather_S300000x128_S800000x1_S800000x128_1_0_n_n_0_1_1128_wf : GatherDims.WF S300000x128 S800000x1 S800000x128 [1] [0] [] [0] [] 1 ![1, 128]
  scatter_S400000x128_S800000x1_S800000x128_1_0_0_1_wf : ScatterDims.WF S400000x128 S800000x1 S800000x128 [1] [0] [0] 1
  gather_S400000x128_S800000x1_S800000x128_1_0_n_n_0_1_1128_wf : GatherDims.WF S400000x128 S800000x1 S800000x128 [1] [0] [] [0] [] 1 ![1, 128]
  scatter_S300000x128_S800000x1_S800000x128_1_0_0_1_wf : ScatterDims.WF S300000x128 S800000x1 S800000x128 [1] [0] [0] 1
  gather_S300000x128_S600000x1_S600000x128_1_0_n_n_0_1_1128_wf : GatherDims.WF S300000x128 S600000x1 S600000x128 [1] [0] [] [0] [] 1 ![1, 128]
  scatter_S200000x128_S600000x1_S600000x128_1_0_0_1_wf : ScatterDims.WF S200000x128 S600000x1 S600000x128 [1] [0] [0] 1
  gather_S200000x128_S400000x1_S400000x128_1_0_n_n_0_1_1128_wf : GatherDims.WF S200000x128 S400000x1 S400000x128 [1] [0] [] [0] [] 1 ![1, 128]
  scatter_S100000x128_S400000x1_S400000x128_1_0_0_1_wf : ScatterDims.WF S100000x128 S400000x1 S400000x128 [1] [0] [0] 1
  dot_S100000x384_S384x128_S100000x128_1_0_0_1_n_n_wf : DotDims.WF S100000x384 S384x128 S100000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def gather_S300000x128_S800000x1_S800000x128_1_0_n_n_0_1_1128 : GatherDims S300000x128 S800000x1 S800000x128 where
  offsetDims := [1]
  collapsedSliceDims := [0]
  operandBatchingDims := []
  startIndicesBatchingDims := []
  startIndexMap := [0]
  indexVectorDim := 1
  sliceSizes := ![1, 128]
  wf := gather_S300000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def gather_S400000x128_S800000x1_S800000x128_1_0_n_n_0_1_1128 : GatherDims S400000x128 S800000x1 S800000x128 where
  offsetDims := [1]
  collapsedSliceDims := [0]
  operandBatchingDims := []
  startIndicesBatchingDims := []
  startIndexMap := [0]
  indexVectorDim := 1
  sliceSizes := ![1, 128]
  wf := gather_S400000x128_S800000x1_S800000x128_1_0_n_n_0_1_1128_wf
def scatter_S300000x128_S800000x1_S800000x128_1_0_0_1 : ScatterDims S300000x128 S800000x1 S800000x128 where
  updateWindowDims := [1]
  insertedWindowDims := [0]
  scatterDimsToOperandDims := [0]
  indexVectorDim := 1
  wf := scatter_S300000x128_S800000x1_S800000x128_1_0_0_1_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.HostStretches.lean ====
/-
  The host operations around the two launches, read as functions of the arguments.

  Before the first launch the program gathers rows of the features by the first index vector (negative indices wrapped
  once, as array indexing does), sums them into 200000 segments by the second, and gathers those sums again by the
  second index vector: `gatheredRows`. Between the launches it sums the 256-wide rows the first launch wrote into 100000
  segments by the first index vector (`scatteredPair`), takes the two 128-wide halves, converts the weights (the
  identity on the extended reals) and reshapes the bias to a row.
-/
import proofs.«410060_j57758720196984_3_alg».proof.Proof.Gen.KernelIdeal.Frame
import Idealize.ShloMosaic.Lib.StableHlo.Run

set_option maxRecDepth 16384

noncomputable section

namespace Cert.KernelIdeal.GenV

open Cert.KernelIdeal Cert.KernelIdeal.Gen
open Idealize.ShloMosaic Idealize.ShloMosaic.TcCoe Idealize.ShloMosaic.StableHlo Idealize.SL.Sem

variable {F : FTy → Type} [FloatOps F]

/-- A vector of row numbers as a column of start indices, a negative number wrapped once by the extent `n`. -/
def wrappedCol (n : BitVec 32) (x : IVec S400000 32) : IVec S400000x1 32 :=
  broadcastInDim S400000x1 ![0] bcast_S400000_S400000x1_0
    (select (cmpi .slt x (broadcastInDim S400000 ![] bcast_S_S400000 (constantI S_ 32 0#32)))
      (addi x (broadcastInDim S400000 ![] bcast_S_S400000 (constantI S_ 32 n))) x)

/-- The segment sums of the gathered feature rows: 200000 × 128. -/
def segmentSums (x0 : FVec F S100000x128 .f32) (x3 x4 : IVec S400000 32) : FVec F S200000x128 .f32 :=
  Host.scatterAdd scatter_S200000x128_S400000x1_S400000x128_1_0_0_1
    (broadcastInDim S200000x128 ![] bcast_S_S200000x128 (constant S_ .f32 0x00000000#32))
    (broadcastInDim S400000x1 ![0] bcast_S400000_S400000x1_0 x4)
    (Host.gather gather_S100000x128_S400000x1_S400000x128_1_0_n_n_0_1_1128 x0 (wrappedCol 100000#32 x3))

/-- Those sums gathered by the second index vector: what the first launch reads, 400000 × 128. -/
def gatheredRows (x0 : FVec F S100000x128 .f32) (x3 x4 : IVec S400000 32) : FVec F S400000x128 .f32 :=
  Host.gather gather_S200000x128_S400000x1_S400000x128_1_0_n_n_0_1_1128 (segmentSums x0 x3 x4) (wrappedCol 200000#32 x4)

/-- The 256-wide rows summed into 100000 segments by the first index vector. -/
def scatteredPair (x3 : IVec S400000 32) (u : FVec F S400000x256 .f32) : FVec F S100000x256 .f32 :=
  Host.scatterAdd scatter_S100000x256_S400000x1_S400000x256_1_0_0_1
    (broadcastInDim S100000x256 ![] bcast_S_S100000x256 (constant S_ .f32 0x00000000#32))
    (broadcastInDim S400000x1 ![0] bcast_S400000_S400000x1_0 x3) u

variable (m : (ℓ : Loc nD τ sig) → Buf (Elt F) ℓ) (ρ : Dev nD → PrngReg)

set_option maxHeartbeats 4000000 in
/-- The first launch reads `gatheredRows` of the arguments. -/
theorem V1_v16 (c : Dev nD) : V1 m ρ c main_v16
    = gatheredRows (F := F) (m ((c : Thread nD τ).loc main_arg0)) (m ((c : Thread nD τ).loc main_arg3)) (m ((c : Thread nD τ).loc main_arg4)) := by
  dsimp only [V1, W1, hostOps0]
  after_results
  rfl

/-- Argument 0 is written by no host operation before the first launch and is none of its arrays. -/
theorem W2_main_arg0 (c : Dev nD) : W2 m ρ c (Proc.devRef .tc main_arg0) = m ((c : Thread nD τ).loc main_arg0) :=
  (W2_of_ne m ρ c main_arg0 (by decide)).trans
    ((StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)

/-- Argument 1 is written by no host operation before the first launch and is none of its arrays. -/
theorem W2_main_arg1 (c : Dev nD) : W2 m ρ c (Proc.devRef .tc main_arg1) = m ((c : Thread nD τ).loc main_arg1) :=
  (W2_of_ne m ρ c main_arg1 (by decide)).trans
    ((StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)

/-- Argument 2 is written by no host operation before the first launch and is none of its arrays. -/
theorem W2_main_arg2 (c : Dev nD) : W2 m ρ c (Proc.devRef .tc main_arg2) = m ((c : Thread nD τ).loc main_arg2) :=
  (W2_of_ne m ρ c main_arg2 (by decide)).trans
    ((StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)

/-- Argument 3 is written by no host operation before the first launch and is none of its arrays. -/
theorem W2_main_arg3 (c : Dev nD) : W2 m ρ c (Proc.devRef .tc main_arg3) = m ((c : Thread nD τ).loc main_arg3) :=
  (W2_of_ne m ρ c main_arg3 (by decide)).trans
    ((StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)

/-- The first launch's output array, at the launch's exit. -/
theorem W2_main_v17 (c : Dev nD) : W2 m ρ c (Proc.devRef .tc main_v17) = (dat0 (V1 m ρ) c).arrAt 1 cfg0.N := W2_arr m ρ c 1

/-- The features pass the host operations between the launches untouched. -/
theorem V3_main_arg0 (c : Dev nD) : V3 m ρ c main_arg0 = m ((c : Thread nD τ).loc main_arg0) :=
  ((StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))).trans (W2_main_arg0 m ρ c)

set_option maxHeartbeats 4000000 in
/-- The second launch's second array: the left half of the segment sums of the first launch's output. -/
theorem V3_main_v21 (c : Dev nD) : V3 m ρ c main_v21
    = extractStridedSlice S100000x128 ![0, 0]
        (scatteredPair (F := F) (m ((c : Thread nD τ).loc main_arg3)) ((dat0 (V1 m ρ) c).arrAt 1 cfg0.N)) slices_S100000x256_S100000x128_0_0 := by
  dsimp only [V3, W3, hostOps1]
  after_results
  rw [W2_main_arg3, W2_main_v17]
  rfl

set_option maxHeartbeats 4000000 in
/-- The second launch's third array: the right half of the same sums. -/
theorem V3_main_v22 (c : Dev nD) : V3 m ρ c main_v22
    = extractStridedSlice S100000x128 ![0, 128]
        (scatteredPair (F := F) (m ((c : Thread nD τ).loc main_arg3)) ((dat0 (V1 m ρ) c).arrAt 1 cfg0.N)) slices_S100000x256_S100000x128_0_128 := by
  dsimp only [V3, W3, hostOps1]
  after_results
  rw [W2_main_arg3, W2_main_v17]
  rfl

set_option maxHeartbeats 4000000 in
/-- The weights, converted to the narrower format. -/
theorem V3_main_v23 (c : Dev nD) : V3 m ρ c main_v23
    = truncf (F := F) .bf16 (m ((c : Thread nD τ).loc main_arg1) : FVec F S384x128 .f32) bitsLt_bf16_f32 := by
  dsimp only [V3, W3, hostOps1]
  after_results
  rw [W2_main_arg1]

set_option maxHeartbeats 4000000 in
/-- The bias as a row. -/
theorem V3_main_v24 (c : Dev nD) : V3 m ρ c main_v24
    = shapeCast S1x128 (m ((c : Thread nD τ).loc main_arg2) : FVec F S128 .f32) shapeCasts_S128_S1x128 := by
  dsimp only [V3, W3, hostOps1]
  after_results
  rw [W2_main_arg2]
  rfl

end Cert.KernelIdeal.GenV

end
-- ==== Proof.Spec.lean ====
/-
  The mathematics of the layer, on the extended reals.

  A row of 128 logits `v` has the softmax `smRow v q = exp (v q − M) / ∑ₖ exp (v k − M)`, `M` the fold of `max` over the
  row from −∞. The first launch writes, beside each gathered row `e r`, its softmax: the 256-wide row
  `[e r | smRow (e r)]` (`packed`). The second launch multiplies the 384-wide row `[f | g | d]` by the weights, adds the
  bias and applies `z ↦ z · logistic z` (`silu`); the product of a concatenated row is the sum of the three products
  over the weight matrix's three row bands (`fusedOut`), which on the extended reals needs only that addition is
  commutative and associative.
-/
import Idealize.ShloMosaic.PureOps.Ideal.Laws
import Idealize.ShloMosaic.Lib.ValueIdx

noncomputable section

namespace Cert.PathLayer

open Idealize.ShloMosaic Idealize.ShloMosaic.ValueIdx

/-- A rank-2 array of extended reals with literal extents. -/
abbrev Arr2 (n c : Nat) : Type := (⟨2, ![n, c]⟩ : Shape).Idx → EReal

/-- The value of the f32 word of −∞ (never evaluated: the same word stands on both sides). -/
abbrev negInf : EReal := Ideal.ofBits .f32 0xFF800000#32

/-- A row's maximum, as the fold of `max` from −∞ over its 128 entries. -/
def rowMax (v : Fin 128 → EReal) : EReal := (Finset.univ : Finset (Fin 128)).fold max negInf v

/-- The softmax of a row of 128 logits. -/
def smRow (v : Fin 128 → EReal) (q : Fin 128) : EReal :=
  Ideal.div (Ideal.exp (v q - rowMax v)) (∑ k : Fin 128, Ideal.exp (v k - rowMax v))

/-- `z · logistic z`. -/
def silu (z : EReal) : EReal := z * Ideal.logistic z

/-- Row `r` of an array, as a function of the column. -/
abbrev rowOf {n : Nat} (e : Arr2 n 128) (r : Fin n) : Fin 128 → EReal := fun k => e (ix2 r k)

/-- What the first launch leaves: each row `e r` beside its softmax, 256 wide. -/
def packed (e : Arr2 400000 128) : Arr2 400000 256 := fun i =>
  if h : (i 1).val < 128 then e (ix2 ⟨(i 0).val, idx2_lt0 i⟩ ⟨(i 1).val, h⟩)
  else smRow (rowOf e ⟨(i 0).val, idx2_lt0 i⟩) ⟨(i 1).val - 128, by have h2 : (i 1).val < 256 := idx2_lt1 i; omega⟩

/-- What the second launch leaves at `(i, q)`: the three products over the weight matrix's row bands, the bias, `silu`. -/
def fusedOut (f g d : Arr2 100000 128) (w : Arr2 384 128) (b : Arr2 1 128) : Arr2 100000 128 := fun i =>
  silu ((∑ k : Fin 128, f (ix2 ⟨(i 0).val, idx2_lt0 i⟩ k) * w (ix2 ⟨k.val, by omega⟩ ⟨(i 1).val, idx2_lt1 i⟩)
      + ∑ k : Fin 128, g (ix2 ⟨(i 0).val, idx2_lt0 i⟩ k) * w (ix2 ⟨128 + k.val, by omega⟩ ⟨(i 1).val, idx2_lt1 i⟩)
      + ∑ k : Fin 128, d (ix2 ⟨(i 0).val, idx2_lt0 i⟩ k) * w (ix2 ⟨256 + k.val, by omega⟩ ⟨(i 1).val, idx2_lt1 i⟩))
    + b (ix2 (0 : Fin 1) ⟨(i 1).val, idx2_lt1 i⟩))

end Cert.PathLayer

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.Region0Value.lean ====
/-
  The first launch, as one function of the gathered rows: every grid point reads a block of 5000 rows of the
  400000 × 128 array and writes the same 5000 rows of the 400000 × 256 array, each row beside its softmax; the 80
  blocks tile the output, so the whole array ends at `packed` of the input array.
-/
import proofs.«410060_j57758720196984_3_alg».proof.Proof.Gen.KernelIdeal.Frame
import proofs.«410060_j57758720196984_3_alg».proof.Proof.Spec
import proofs.«410060_j57758720196984_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.PathLayer

open Idealize.ShloMosaic Idealize.ShloMosaic.TcCoe Idealize.ShloMosaic.ValueIdx Idealize.SL.Sem
open Cert.KernelIdeal Cert.KernelIdeal.Gen

/-- A lane maximum of an `[a, b]` vector along its second axis, read at row `p` on the extended reals, is the fold of
    `max` over that row's entries from the accumulator word's value. -/
theorem rowMaxFold_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

/-- The first payload is the block itself. -/
theorem rowPayload_eq (x0 : Vec Ideal S5000x128 .f32) : k0_pay1 (F := Ideal) x0 = x0 := by
  unfold k0_pay1
  exact shapeCast_self _ _

/-- The row maximum kept as a column and spread back across the row: at `(p, k)` it is row `p`'s maximum. -/
theorem rowMaxSpread_apply (x0 : FVec Ideal S5000x128 .f32) (h : S5000x128.Reduces [1] S5000) (hφ : FKind.Formats .f32)
    (hacc : (0xFF800000#32 : BitVec FTy.f32.bits) = FKind.maximumf.neutral .f32 hφ)
    (hc : S5000.ShapeCasts S5000x1) (hb : S5000x1.Broadcasts S5000x128) (p : Fin 5000) (k : Fin 128) :
    broadcastTo S5000x128 (shapeCast S5000x1 (multiReduction (F := Ideal) .maximumf [1] S5000 x0 0xFF800000#32 h hφ hacc) hc) hb (ix2 p k)
      = rowMax (fun k => x0 (ix2 p k)) :=
  (Cert.LibKeepdims.broadcastTo_a1_ab_apply _ hb p k).trans
    ((Cert.LibKeepdims.shapeCast_a_a1_apply _ hc p 0).trans (rowMaxFold_apply x0 _ h hφ hacc p))

/-- The second payload at `(p, q)` is the softmax of row `p` at column `q`. -/
theorem softmaxPayload_apply (x0 : Vec Ideal S5000x128 .f32) (p : Fin 5000) (q : Fin 128) :
    k0_pay2 (F := Ideal) x0 (ix2 p q) = smRow (fun k => x0 (ix2 p k)) q := by
  unfold k0_pay2
  simp only [rowPayload_eq]
  rw [divf_apply]
  unfold smRow
  refine congrArg₂ Ideal.div ?_ ?_
  · exact congrArg (fun m => Ideal.exp (x0 (ix2 p q) - m)) (rowMaxSpread_apply x0 _ _ _ _ _ p q)
  · refine (Cert.LibKeepdims.broadcastTo_a1_ab_apply _ _ p q).trans
      ((Cert.LibKeepdims.shapeCast_a_a1_apply _ _ p 0).trans ((Cert.LibKeepdims.rowSum_apply _ _ _ _ _ p).trans ?_))
    refine Finset.sum_congr rfl fun k _ => ?_
    exact congrArg (fun m => Ideal.exp (x0 (ix2 p k) - m)) (rowMaxSpread_apply x0 _ _ _ _ _ p k)

/-- A 256-wide row: the 128 logits, then their softmax. -/
def packedRow (v : Fin 128 → EReal) (c : Fin 256) : EReal :=
  if h : c.val < 128 then v ⟨c.val, h⟩ else smRow v ⟨c.val - 128, by have := c.isLt; omega⟩

/-- In the left half a packed row is the row. -/
theorem packedRow_left (v : Fin 128 → EReal) (c : Fin 256) (q : Fin 128) (h : c.val = q.val) : packedRow v c = v q := by
  unfold packedRow
  rw [dif_pos (by have := q.isLt; omega)]
  exact congrArg v (Fin.ext h)

/-- In the right half a packed row is the row's softmax. -/
theorem packedRow_right (v : Fin 128 → EReal) (c : Fin 256) (q : Fin 128) (h : c.val = 128 + q.val) :
    packedRow v c = smRow v q := by
  unfold packedRow
  rw [dif_neg (by omega)]
  exact congrArg (smRow v) (Fin.ext (by show c.val - 128 = q.val; omega))

/-- The array the launch leaves is row by row a packed row. -/
theorem packed_apply (e : Arr2 400000 128) (i : (⟨2, ![400000, 256]⟩ : Shape).Idx) :
    packed e i = packedRow (rowOf e ⟨(i 0).val, idx2_lt0 i⟩) ⟨(i 1).val, idx2_lt1 i⟩ := rfl

/-- A block of 5000 rows, each beside its softmax. -/
def packedBlock (x0 : Vec Ideal S5000x128 .f32) : Vec Ideal S5000x256 .f32 := fun y =>
  packedRow (fun k => x0 (ix2 ⟨(y 0).val, idx2_lt0 y⟩ k)) ⟨(y 1).val, idx2_lt1 y⟩

/-- The packed block at an index whose coordinates are `p` and `c`. -/
theorem packedBlock_at (x0 : Vec Ideal S5000x128 .f32) (y : S5000x256.Idx) (p : Fin 5000) (c : Fin 256)
    (h0 : (y 0).val = p.val) (h1 : (y 1).val = c.val) : packedBlock x0 y = packedRow (fun k => x0 (ix2 p k)) c := by
  obtain rfl : y = ix2 p c := by
    funext a
    match a with
    | ⟨0, _⟩ => exact Fin.ext h0
    | ⟨1, _⟩ => exact Fin.ext h1
  rfl

theorem hz0 : (![0, 0] : Fin 2 → Nat) = fun _ => 0 := funext fun a => by
  match a with
  | ⟨0, _⟩ => rfl
  | ⟨1, _⟩ => rfl

/-- The softmax payload, stored at columns 128 … 255, is the packed block there. -/
theorem softmaxPiece (x0 : Vec Ideal S5000x128 .f32) (x : S5000x128.Idx) :
    k0_pay2 (F := Ideal) x0 x = packedBlock x0 (r0_2.emb x) := by
  obtain ⟨p, q, rfl⟩ : ∃ (p : Fin 5000) (q : Fin 128), x = ix2 p q := ⟨x 0, x 1, eq_ix2 x⟩
  rw [softmaxPayload_apply, packedBlock_at x0 _ p ⟨128 + q.val, by have := q.isLt; omega⟩
    (by show 0 + 1 * p.val = p.val; omega) (by show 128 + 1 * q.val = 128 + q.val; omega)]
  refine (packedRow_right _ _ q ?_).symm
  rfl

/-- The row payload, stored at columns 0 … 127, is the packed block there. -/
theorem rowPiece (x0 : Vec Ideal S5000x128 .f32) (x : S5000x128.Idx) :
    k0_pay1 (F := Ideal) x0 x = packedBlock x0 (r0_1.emb x) := by
  obtain ⟨p, q, rfl⟩ : ∃ (p : Fin 5000) (q : Fin 128), x = ix2 p q := ⟨x 0, x 1, eq_ix2 x⟩
  rw [rowPayload_eq, packedBlock_at x0 _ p ⟨q.val, by have := q.isLt; omega⟩
    (by show 0 + 1 * p.val = p.val; omega) (by show 0 + 1 * q.val = q.val; omega)]
  refine (packedRow_left (fun k => x0 (ix2 p k)) _ q ?_).symm
  rfl

/-- WHAT THE BODY LEAVES in the output's buffer: the packed block of the input block. -/
theorem out_eq_packedBlock (x0 : Vec Ideal S5000x128 .f32) : out0_1 (F := Ideal) x0 = packedBlock x0 := by
  funext y
  unfold out0_1
  simp only [View.ld_unit_zero (S := S5000x128) hz0]
  refine View.canon_apply_of_pieces (packedBlock x0) _ ?_ y (cover0_1 _ _ y)
  intro pc hpc
  rcases List.mem_cons.mp hpc with rfl | hpc
  · exact fun x => softmaxPiece x0 x
  · rcases List.mem_cons.mp hpc with rfl | hpc
    · exact fun x => rowPiece x0 x
    · exact absurd hpc List.not_mem_nil

/-- The printed index maps, decided over the grid: at point `t` both windows' blocks are block row `t`, block column 0. -/
theorem blockIndex_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A buffer holding rows `5000 T …` of an array `e` packs to the same rows of `packed e`. -/
theorem packedBlock_eq_packed (x0 : Vec Ideal S5000x128 .f32) (e : Arr2 400000 128) (T : ℕ)
    (hx : ∀ (p : Fin 5000) (k : Fin 128) (r : Fin 400000), r.val = T * 5000 + p.val → x0 (ix2 p k) = e (ix2 r k))
    (y : S5000x256.Idx) (i : S400000x256.Idx) (h0 : (i 0).val = T * 5000 + (y 0).val) (h1 : (i 1).val = (y 1).val) :
    packedBlock x0 y = packed e i := by
  rw [packed_apply]
  unfold packedBlock
  refine congrArg₂ packedRow (funext fun k => hx _ k _ h0) (Fin.ext h1.symm)

/-- The input window's block at point `t` is rows `5000 t …` of the array the launch reads. -/
theorem inputBlock0_apply (V : (c : Dev nD) → (b : Ref sig .tc) → Buf (Elt Ideal) ((c : Thread nD τ).loc b)) (c : Dev nD)
    (t : Fin cfg0.N) (p : Fin 5000) (k : Fin 128) (r : Fin 400000) (hr : r.val = t.val * 5000 + p.val) :
    (iblk0 (F := Ideal) V c 0 t : Vec Ideal S5000x128 .f32) (ix2 p k) = (V c main_v16 : Arr2 400000 128) (ix2 r k) := by
  obtain ⟨e0, e1, -, -⟩ := blockIndex_facts0 t
  unfold iblk0
  rw [View.read_apply]
  show V c main_v16 (((cfg0.win 0).blk t).view.emb (ix2 p k)) = V c main_v16 (ix2 r k)
  refine congrArg (V c main_v16) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- WHAT POINT `t` WRITES BACK is block `t` of `packed` of the array the launch reads. -/
theorem flushed0_eq_packed (V : (c : Dev nD) → (b : Ref sig .tc) → Buf (Elt Ideal) ((c : Thread nD τ).loc b)) (c : Dev nD)
    (t : Fin cfg0.N) :
    (dat0 (F := Ideal) V c).flushed 1 t = ((cfg0.win 1).blk t).view.read (Elt Ideal) (packed (V c main_v16)) := by
  show (cfg0.win 1).cut (grid0.coords t) ((dat0 V c).after 1 t) = _
  rw [after0_1, out_eq_packedBlock]
  obtain ⟨-, -, e2, e3⟩ := blockIndex_facts0 t
  funext j
  refine packedBlock_eq_packed _ (V c main_v16) t.val (fun p k r hr => inputBlock0_apply V c t p k r hr) _ _ ?_ ?_
  · show win0_1.index t (0 : Fin 2) * 5000 + 1 * (j 0).val = t.val * 5000 + (j 0).val; rw [e2]; omega
  · show win0_1.index t (1 : Fin 2) * 256 + 1 * (j 1).val = (j 1).val; rw [e3]; omega

/-- An index of the array is in point `t`'s block iff each coordinate is in the block's range on its axis. -/
theorem mem_outputBlock0 (t : Fin cfg0.N) (i : S400000x256.Idx) :
    i ∈ ((cfg0.win 1).blk t).view.set ↔ ∀ a : Fin 2, win0_1.index t a * S5000x256.size a ≤ (i a).val
      ∧ (i a).val < win0_1.index t a * S5000x256.size a + S5000x256.size a := by
  show i ∈ ((View.whole main_v17).slice (win0_1.rect t)).set ↔ _
  rw [View.set_slice_whole, Rect.mem_set_unit]
  exact Iff.rfl

/-- The 80 blocks of 5000 rows tile the 400000 rows: row `r` is in block `r / 5000`. -/
theorem outputBlocks0_cover (i : S400000x256.Idx) :
    ∃ t : Fin cfg0.N, (cfg0.win 1).flush t = true ∧ i ∈ ((cfg0.win 1).blk t).view.set := by
  have hN : cfg0.N = 80 := N_0
  have hi0 : (i 0).val < 400000 := (i 0).isLt
  have hi1 : (i 1).val < 256 := (i 1).isLt
  refine ⟨⟨(i 0).val / 5000, by rw [hN]; omega⟩, flush0_1 _, ?_⟩
  obtain ⟨-, -, e2, e3⟩ := blockIndex_facts0 ⟨(i 0).val / 5000, by rw [hN]; omega⟩
  rw [mem_outputBlock0]
  intro a
  match a with
  | ⟨0, _⟩ =>
    show win0_1.index _ (0 : Fin 2) * 5000 ≤ (i 0).val ∧ (i 0).val < win0_1.index _ (0 : Fin 2) * 5000 + 5000
    rw [e2]; show (i 0).val / 5000 * 5000 ≤ (i 0).val ∧ (i 0).val < (i 0).val / 5000 * 5000 + 5000; omega
  | ⟨1, _⟩ =>
    show win0_1.index _ (1 : Fin 2) * 256 ≤ (i 1).val ∧ (i 1).val < win0_1.index _ (1 : Fin 2) * 256 + 256
    rw [e3]; omega

/-- The output array of the first launch after its run, whatever the buffers hold when the launch is entered (`V`):
    `packed` of the array the launch reads. -/
theorem final0 (V : (c : Dev nD) → (b : Ref sig .tc) → Buf (Elt Ideal) ((c : Thread nD τ).loc b)) (c : Dev nD) :
    (dat0 (F := Ideal) V c).arrAt 1 cfg0.N = packed (V c main_v16) :=
  (dat0 (F := Ideal) V c).arrAt_eq_of_cover 1 (packed (V c main_v16)) (fun t _ => flushed0_eq_packed V c t) outputBlocks0_cover

end Cert.PathLayer

end
-- ==== Proof.Region1Value.lean ====
/-
  The second launch, as one function of its five arrays: every grid point reads a block of 5000 rows of each of the
  three 100000 × 128 arrays, the whole 384 × 128 weight matrix and the 1 × 128 bias, and writes the same 5000 rows of
  the result; the 20 blocks tile the output, so the whole array ends at `fusedOut` of the five arrays.
-/
import proofs.«410060_j57758720196984_3_alg».proof.Proof.Gen.KernelIdeal.Frame
import proofs.«410060_j57758720196984_3_alg».proof.Proof.Spec
import proofs.«410060_j57758720196984_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.PathLayer

open Idealize.ShloMosaic Idealize.ShloMosaic.TcCoe Idealize.ShloMosaic.ValueIdx Idealize.SL.Sem
open Cert.KernelIdeal Cert.KernelIdeal.Gen

/-- The zero offsets of a whole-block rectangle, as the constant function. -/
theorem fused_hz : (![0, 0] : Fin 2 → Nat) = fun _ => 0 :=
  funext fun a => by match a with | ⟨0, _⟩ => rfl | ⟨1, _⟩ => rfl

/-- The product's left operand is read at the result's row … -/
theorem fused_lhs_band_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summation index on its columns; -/
theorem fused_lhs_band_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index on its rows … -/
theorem fused_rhs_band_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the result's column. -/
theorem fused_rhs_band_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product accumulated onto zero, read at `(p, q)`: the sum over `k` of row `p` times column `q`. -/
theorem fused_band_product_apply (lhs : FVec Ideal S5000x128 .bf16) (rhs : FVec Ideal S128x128 .bf16) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact fused_lhs_band_0 _ _
    | ⟨1, _⟩ => exact (fused_lhs_band_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (fused_rhs_band_0 _ _).trans hk
    | ⟨1, _⟩ => exact fused_rhs_band_1 _ _)
  rw [el, er]

/-- The weight matrix's first band of 128 rows, read at `(k, q)`. -/
theorem fused_band0_apply (x3 : FVec Ideal S384x128 .bf16) (k q : Fin 128) :
    extractStridedSlice S128x128 ![0, 0] x3 slices_S384x128_o0_0_S128x128 (ix2 k q)
      = x3 (ix2 (⟨k.val, by omega⟩ : Fin 384) q) :=
  slice2_axis0_apply 0 x3 _ k q ⟨k.val, by omega⟩ (Nat.zero_add _).symm
/-- Its second band. -/
theorem fused_band1_apply (x3 : FVec Ideal S384x128 .bf16) (k q : Fin 128) :
    extractStridedSlice S128x128 ![128, 0] x3 slices_S384x128_o128_0_S128x128 (ix2 k q)
      = x3 (ix2 (⟨128 + k.val, by omega⟩ : Fin 384) q) :=
  slice2_axis0_apply 128 x3 _ k q ⟨128 + k.val, by omega⟩ rfl
/-- Its third band. -/
theorem fused_band2_apply (x3 : FVec Ideal S384x128 .bf16) (k q : Fin 128) :
    extractStridedSlice S128x128 ![256, 0] x3 slices_S384x128_o256_0_S128x128 (ix2 k q)
      = x3 (ix2 (⟨256 + k.val, by omega⟩ : Fin 384) q) :=
  slice2_axis0_apply 256 x3 _ k q ⟨256 + k.val, by omega⟩ rfl

/-- THE BODY'S ARITHMETIC AT `(p, q)`: the three products over the weight matrix's row bands, the bias row, `silu`. -/
theorem fused_pay_apply (x0 x1 x2 : Vec Ideal S5000x128 .f32) (x3 : Vec Ideal S384x128 .bf16) (x4 : Vec Ideal S1x128 .f32)
    (p : Fin 5000) (q : Fin 128) :
    k1_pay1 (F := Ideal) x0 x1 x2 x3 x4 (ix2 p q)
      = silu ((∑ k : Fin 128, x0 (ix2 p k) * x3 (ix2 (⟨k.val, by omega⟩ : Fin 384) q)
          + ∑ k : Fin 128, x1 (ix2 p k) * x3 (ix2 (⟨128 + k.val, by omega⟩ : Fin 384) q)
          + ∑ k : Fin 128, x2 (ix2 p k) * x3 (ix2 (⟨256 + k.val, by omega⟩ : Fin 384) q))
        + x4 (ix2 (0 : Fin 1) q)) := by
  unfold k1_pay1 silu
  simp only [shapeCast_self]
  rw [mulf_apply]
  have hlog : ∀ (v : FVec Ideal S5000x128 .f32) (i : S5000x128.Idx), logistic v i = Ideal.logistic (v i) := fun _ _ => rfl
  rw [hlog]
  simp only [addf_apply, fused_band_product_apply, truncf_apply]
  rw [broadcastTo_1b_ab_apply]
  simp only [fused_band0_apply, fused_band1_apply, fused_band2_apply]

/-- The printed index maps over the 20 points: the three row-blocked inputs and the output sit at block `(t, 0)`, the
    weights and the bias at block `(0, 0)`. -/
theorem fused_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 20 :=
  (by decide +kernel : ∀ t : Fin grid1.N, _)

/-- ONE BLOCK OF THE RESULT: if the three row blocks are rows `5000 T …` of `f`, `g`, `d` and the other two blocks are
    `w` and `b`, the body's arithmetic at `y` is `fusedOut` at row `5000 T + y₀`, column `y₁`. -/
theorem fused_block_value (f g d : Arr2 100000 128) (w : Arr2 384 128) (b : Arr2 1 128)
    (x0 x1 x2 : Vec Ideal S5000x128 .f32) (x3 : Vec Ideal S384x128 .bf16) (x4 : Vec Ideal S1x128 .f32) (T : Nat)
    (h0 : ∀ (p : Fin 5000) (q : Fin 128) (r : Fin 100000), r.val = T * 5000 + p.val → x0 (ix2 p q) = f (ix2 r q))
    (h1 : ∀ (p : Fin 5000) (q : Fin 128) (r : Fin 100000), r.val = T * 5000 + p.val → x1 (ix2 p q) = g (ix2 r q))
    (h2 : ∀ (p : Fin 5000) (q : Fin 128) (r : Fin 100000), r.val = T * 5000 + p.val → x2 (ix2 p q) = d (ix2 r q))
    (h3 : ∀ (a : Fin 384) (q : Fin 128), x3 (ix2 a q) = w (ix2 a q))
    (h4 : ∀ q : Fin 128, x4 (ix2 (0 : Fin 1) q) = b (ix2 (0 : Fin 1) q))
    (y : S5000x128.Idx) (i : S100000x128.Idx)
    (hi0 : (i 0).val = T * 5000 + (y 0).val) (hi1 : (i 1).val = (y 1).val) :
    k1_pay1 (F := Ideal) x0 x1 x2 x3 x4 y = fusedOut f g d w b i := by
  obtain ⟨p, q, rfl⟩ : ∃ (p : Fin 5000) (q : Fin 128), y = ix2 p q := ⟨y 0, y 1, eq_ix2 y⟩
  have hi0' : (i 0).val = T * 5000 + p.val := hi0
  have hq : (⟨(i 1).val, idx2_lt1 i⟩ : Fin 128) = q := Fin.ext hi1
  have e0 : ∀ k : Fin 128, x0 (ix2 p k) = f (ix2 (⟨(i 0).val, idx2_lt0 i⟩ : Fin 100000) k) := fun k => h0 p k _ hi0'
  have e1 : ∀ k : Fin 128, x1 (ix2 p k) = g (ix2 (⟨(i 0).val, idx2_lt0 i⟩ : Fin 100000) k) := fun k => h1 p k _ hi0'
  have e2 : ∀ k : Fin 128, x2 (ix2 p k) = d (ix2 (⟨(i 0).val, idx2_lt0 i⟩ : Fin 100000) k) := fun k => h2 p k _ hi0'
  rw [fused_pay_apply]
  unfold fusedOut
  rw [hq]
  simp only [e0, e1, e2, h3, h4]

/-- WHAT POINT `t` WRITES BACK is block `t` of `fusedOut` of the five arrays as the launch finds them. -/
theorem fused_flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (fusedOut (V c main_arg0) (V c main_v21) (V c main_v22) (V c main_v23) (V c main_v24)) := by
  show (cfg1.win 5).cut (grid1.coords t) ((dat1 V c).after 5 t) = _
  rw [after1_5]
  unfold out1_5
  rw [View.canon_unit_zero fused_hz]
  simp only [View.ld_unit_zero (S := S5000x128) fused_hz, View.ld_unit_zero (S := S384x128) fused_hz, View.ld_unit_zero (S := S1x128) fused_hz]
  obtain ⟨e00, e01, e10, e11, e20, e21, e30, e31, e40, e41, e50, e51, ht⟩ := fused_idx_facts t
  funext j
  show k1_pay1 (F := Ideal) (iblk1 V c 0 t) (iblk1 V c 1 t) (iblk1 V c 2 t) (iblk1 V c 3 t) (iblk1 V c 4 t) j
    = fusedOut (V c main_arg0) (V c main_v21) (V c main_v22) (V c main_v23) (V c main_v24) (((cfg1.win 5).blk t).view.emb j)
  refine fused_block_value _ _ _ _ _ _ _ _ _ _ t.val ?_ ?_ ?_ ?_ ?_ j _ ?_ ?_
  · intro p q r hr
    show V c main_arg0 (((cfg1.win 0).blk t).view.emb (ix2 p q)) = V c main_arg0 (ix2 r q)
    refine congrArg _ (funext fun a => Fin.ext ?_)
    match a with
    | ⟨0, _⟩ => show win1_0.index t (0 : Fin 2) * 5000 + 1 * p.val = r.val; omega
    | ⟨1, _⟩ => show win1_0.index t (1 : Fin 2) * 128 + 1 * q.val = q.val; omega
  · intro p q r hr
    show V c main_v21 (((cfg1.win 1).blk t).view.emb (ix2 p q)) = V c main_v21 (ix2 r q)
    refine congrArg _ (funext fun a => Fin.ext ?_)
    match a with
    | ⟨0, _⟩ => show win1_1.index t (0 : Fin 2) * 5000 + 1 * p.val = r.val; omega
    | ⟨1, _⟩ => show win1_1.index t (1 : Fin 2) * 128 + 1 * q.val = q.val; omega
  · intro p q r hr
    show V c main_v22 (((cfg1.win 2).blk t).view.emb (ix2 p q)) = V c main_v22 (ix2 r q)
    refine congrArg _ (funext fun a => Fin.ext ?_)
    match a with
    | ⟨0, _⟩ => show win1_2.index t (0 : Fin 2) * 5000 + 1 * p.val = r.val; omega
    | ⟨1, _⟩ => show win1_2.index t (1 : Fin 2) * 128 + 1 * q.val = q.val; omega
  · intro a q
    show V c main_v23 (((cfg1.win 3).blk t).view.emb (ix2 a q)) = V c main_v23 (ix2 a q)
    refine congrArg _ (funext fun ax => Fin.ext ?_)
    match ax with
    | ⟨0, _⟩ => show win1_3.index t (0 : Fin 2) * 384 + 1 * a.val = a.val; omega
    | ⟨1, _⟩ => show win1_3.index t (1 : Fin 2) * 128 + 1 * q.val = q.val; omega
  · intro q
    show V c main_v24 (((cfg1.win 4).blk t).view.emb (ix2 (0 : Fin 1) q)) = V c main_v24 (ix2 (0 : Fin 1) q)
    refine congrArg _ (funext fun ax => Fin.ext ?_)
    match ax with
    | ⟨0, _⟩ => show win1_4.index t (0 : Fin 2) * 1 + 1 * 0 = 0; omega
    | ⟨1, _⟩ => show win1_4.index t (1 : Fin 2) * 128 + 1 * q.val = q.val; omega
  · show win1_5.index t (0 : Fin 2) * 5000 + 1 * (j 0).val = t.val * 5000 + (j 0).val; omega
  · show win1_5.index t (1 : Fin 2) * 128 + 1 * (j 1).val = (j 1).val; omega

/-- An index of the result is in point `t`'s block iff each coordinate is in the block's range on its axis. -/
theorem fused_mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v25).slice (win1_5.rect t)).set ↔ _
  rw [View.set_slice_whole, Rect.mem_set_unit]
  exact Iff.rfl

/-- THE 20 BLOCKS TILE THE RESULT: row `r` is in the block of point `r / 5000`. -/
theorem fused_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have htv : t.val = (i 0).val / 5000 := rfl
  obtain ⟨-, -, -, -, -, -, -, -, -, -, e50, e51, -⟩ := fused_idx_facts t
  refine ⟨t, flush1_5 t, ?_⟩
  rw [fused_mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The output array of the second launch after its run, whatever the buffers hold when the launch is entered (`V`):
    `fusedOut` of the five arrays the launch reads. -/
theorem final1 (V : (c : Dev nD) → (b : Ref sig .tc) → Buf (Elt Ideal) ((c : Thread nD τ).loc b)) (c : Dev nD) :
    (dat1 (F := Ideal) V c).arrAt 5 cfg1.N
      = fusedOut (V c main_arg0) (V c main_v21) (V c main_v22) (V c main_v23) (V c main_v24) := by
  exact (dat1 (F := Ideal) V c).arrAt_eq_of_cover 5
    (fusedOut (V c main_arg0) (V c main_v21) (V c main_v22) (V c main_v23) (V c main_v24))
    (fun t _ => fused_flushed_eq V c t) fused_cover

end Cert.PathLayer

end
-- ==== Proof.KernelValue.lean ====
/-
  The kernel program's result as one function of the arguments.

  Through the two launches and the host operations around them the result array ends at `fusedOut` of the features,
  the two halves of the segment sums of `packed` of the gathered rows, the weights and the bias row.
-/
import proofs.«410060_j57758720196984_3_alg».proof.Proof.HostStretches
import proofs.«410060_j57758720196984_3_alg».proof.Proof.Region0Value
import proofs.«410060_j57758720196984_3_alg».proof.Proof.Region1Value
import proofs.«410060_j57758720196984_3_alg».proof.Proof.Spec

set_option maxRecDepth 16384

noncomputable section

namespace Cert.KernelIdeal.GenV

open Cert.KernelIdeal Cert.KernelIdeal.Gen Cert.PathLayer
open Idealize.ShloMosaic Idealize.ShloMosaic.TcCoe Idealize.ShloMosaic.StableHlo Idealize.SL.Sem

/-- The segment sums, by the first index vector, of each gathered row beside its softmax: 100000 × 256. -/
def pairSums (x0 : FVec Ideal S100000x128 .f32) (x3 x4 : IVec S400000 32) : FVec Ideal S100000x256 .f32 :=
  scatteredPair (F := Ideal) x3 (packed (gatheredRows (F := Ideal) x0 x3 x4))

/-- The kernel program's result as a function of its first five arguments. -/
def kernelOut (x0 : FVec Ideal S100000x128 .f32) (x1 : FVec Ideal S384x128 .f32) (x2 : FVec Ideal S128 .f32)
    (x3 x4 : IVec S400000 32) : Arr2 100000 128 :=
  fusedOut x0
    (extractStridedSlice S100000x128 ![0, 0] (pairSums x0 x3 x4) slices_S100000x256_S100000x128_0_0)
    (extractStridedSlice S100000x128 ![0, 128] (pairSums x0 x3 x4) slices_S100000x256_S100000x128_0_128)
    (truncf (F := Ideal) .bf16 x1 bitsLt_bf16_f32)
    (shapeCast S1x128 x2 shapeCasts_S128_S1x128)

variable (m : (ℓ : Loc nD τ sig) → Buf (Elt Ideal) ℓ) (ρ : Dev nD → PrngReg)

/-- The first launch's output array at its exit: `packed` of the gathered rows of the arguments. -/
theorem exit0 (c : Dev nD) : (dat0 (F := Ideal) (V1 m ρ) c).arrAt 1 cfg0.N
    = packed (gatheredRows (F := Ideal) (m ((c : Thread nD τ).loc main_arg0)) (m ((c : Thread nD τ).loc main_arg3)) (m ((c : Thread nD τ).loc main_arg4))) :=
  (final0 (V1 m ρ) c).trans (congrArg packed (V1_v16 m ρ c))

/-- The result array at the last boundary: `kernelOut` of the arguments. -/
theorem W4_result (c : Dev nD) : W4 (F := Ideal) m ρ c (Proc.devRef .tc main_v25)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 5).trans ((final1 (V3 m ρ) c).trans ?_)
  rw [V3_main_arg0, V3_main_v21, V3_main_v22, V3_main_v23, V3_main_v24, exit0]
  rfl

end Cert.KernelIdeal.GenV

end
-- ==== Proof.KernelOutApply.lean ====
/-
  The kernel program's result read at an index: `silu` of the three band sums, over the features and the two halves of
  the 256-wide segment sums, plus the bias.
-/
import proofs.«410060_j57758720196984_3_alg».proof.Proof.KernelValue
import proofs.«410060_j57758720196984_3_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.GenV

open Cert.KernelIdeal Cert.KernelIdeal.Gen Cert.PathLayer
open Idealize.ShloMosaic Idealize.ShloMosaic.TcCoe Idealize.ShloMosaic.ValueIdx

/-- The left half of a 256-wide array, read at `(n, k)`: the array at column `k`. -/
theorem kernelOut_leftHalf_apply (P : FVec Ideal S100000x256 .f32) (n : Fin 100000) (k : Fin 128) :
    extractStridedSlice S100000x128 ![0, 0] P slices_S100000x256_S100000x128_0_0 (ix2 n k)
      = P (ix2 n (⟨k.val, by omega⟩ : Fin 256)) :=
  slice2_axis1_apply 0 P _ n k ⟨k.val, by omega⟩ (Nat.zero_add _).symm

/-- The right half, read at `(n, k)`: the array at column `128 + k`. -/
theorem kernelOut_rightHalf_apply (P : FVec Ideal S100000x256 .f32) (n : Fin 100000) (k : Fin 128) :
    extractStridedSlice S100000x128 ![0, 128] P slices_S100000x256_S100000x128_0_128 (ix2 n k)
      = P (ix2 n (⟨128 + k.val, by omega⟩ : Fin 256)) :=
  slice2_axis1_apply 128 P _ n k ⟨128 + k.val, by omega⟩ rfl

/-- The bias as a row, read at `(0, q)`: the bias at `q`. -/
theorem kernelOut_biasRow_apply (x2 : FVec Ideal S128 .f32) (q : Fin 128) :
    shapeCast S1x128 x2 shapeCasts_S128_S1x128 (ix2 (0 : Fin 1) q) = x2 (ix1 q) :=
  shapeCast_a_1a_apply x2 _ 0 q

/-- THE KERNEL PROGRAM'S RESULT AT `(n, q)`. -/
theorem kernelOut_apply (x0 : FVec Ideal S100000x128 .f32) (x1 : FVec Ideal S384x128 .f32) (x2 : FVec Ideal S128 .f32)
    (x3 x4 : IVec S400000 32) (n : Fin 100000) (q : Fin 128) :
    kernelOut x0 x1 x2 x3 x4 (ix2 n q)
      = silu ((∑ k : Fin 128, x0 (ix2 n k) * x1 (ix2 (⟨k.val, by omega⟩ : Fin 384) q)
          + ∑ k : Fin 128, pairSums x0 x3 x4 (ix2 n (⟨k.val, by omega⟩ : Fin 256)) * x1 (ix2 (⟨128 + k.val, by omega⟩ : Fin 384) q)
          + ∑ k : Fin 128, pairSums x0 x3 x4 (ix2 n (⟨128 + k.val, by omega⟩ : Fin 256)) * x1 (ix2 (⟨256 + k.val, by omega⟩ : Fin 384) q))
        + x2 (ix1 q)) := by
  unfold kernelOut fusedOut
  have hn : (⟨(ix2 n q 0).val, idx2_lt0 (ix2 n q)⟩ : Fin 100000) = n := rfl
  have hq : (⟨(ix2 n q 1).val, idx2_lt1 (ix2 n q)⟩ : Fin 128) = q := rfl
  rw [hn, hq]
  simp only [kernelOut_leftHalf_apply, kernelOut_rightHalf_apply, kernelOut_biasRow_apply, truncf_apply]

end Cert.KernelIdeal.GenV

end
-- ==== Proof.RefSoftmax.lean ====
/-
  The reference's softmax over the feature axis, read at an index on the extended reals.

  `jax.nn.softmax` of a 200000 × 128 array lowers to: the row maxima (a `max` reduction from −∞, then the
  element-wise maximum with −∞ once more, which changes nothing), broadcast back across the rows; the difference; `exp`;
  the row sums from 0, broadcast back; the quotient. At `(n, q)` that is `smRow` of row `n` at `q`: the same function of
  the row as the kernel's, whichever rows the array holds.
-/
import proofs.«410060_j57758720196984_3_alg».proof.Proof.Gen.ReferenceIdeal
import proofs.«410060_j57758720196984_3_alg».proof.Proof.Spec
import proofs.«410060_j57758720196984_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Mathlib.Data.Finset.Fold

noncomputable section

namespace Cert.PathLayer

open Idealize.ShloMosaic Idealize.ShloMosaic.TcCoe Idealize.ShloMosaic.ValueIdx
open Cert.ReferenceIdeal Cert.ReferenceIdeal.Gen

/-- The row maxima as the reference takes them, broadcast back across the rows. -/
def hostRowMaxB {F : FTy → Type} [FloatOps F] (h : FVec F S200000x128 .f32) : FVec F S200000x128 .f32 :=
  broadcastInDim S200000x128 ![0, 1] bcast_S200000x1_S200000x128_0_1
    (broadcastInDim S200000x1 ![0] bcast_S200000_S200000x1_0
      (maximumf (broadcastInDim S200000 ![] bcast_S_S200000 (constant S_ .f32 0xFF800000#32))
        (Host.reduce FloatOps.maximumf h (constant S_ .f32 0xFF800000#32) reducesTo_S200000x128_S200000_d1 h_S_)))

/-- `exp` of each entry less its row's maximum. -/
def hostShiftedExp {F : FTy → Type} [FloatOps F] (h : FVec F S200000x128 .f32) : FVec F S200000x128 .f32 :=
  Host.exp (subf h (hostRowMaxB h))

/-- The reference's softmax along the feature axis. -/
def hostSoftmax {F : FTy → Type} [FloatOps F] (h : FVec F S200000x128 .f32) : FVec F S200000x128 .f32 :=
  Host.divf (hostShiftedExp h)
    (broadcastInDim S200000x128 ![0, 1] bcast_S200000x1_S200000x128_0_1
      (broadcastInDim S200000x1 ![0] bcast_S200000_S200000x1_0
        (Host.reduceAdd (hostShiftedExp h) (constant S_ .f32 0x00000000#32) reducesTo_S200000x128_S200000_d1 h_S_)))

/-- The reference's `max` reduction of row `n` from −∞ is the row's maximum. -/
theorem hostRowMax_apply (h : FVec Ideal S200000x128 .f32) (n : Fin 200000) :
    Host.reduce FloatOps.maximumf h (constant S_ .f32 0xFF800000#32) reducesTo_S200000x128_S200000_d1 h_S_ (ix1 n)
      = rowMax (rowOf h n) := by
  have hr : S200000x128.Reduces [1] S200000 := by decide
  haveI : Std.Commutative (FloatOps.maximumf (F := Ideal) (φ := .f32)) := ⟨fun a b => max_comm a b⟩
  haveI : Std.Associative (FloatOps.maximumf (F := Ideal) (φ := .f32)) := ⟨fun a b c => max_assoc a b c⟩
  refine (Host.reduce_eq_fold_single (FloatOps.maximumf (F := Ideal) (φ := .f32)) h _
    reducesTo_S200000x128_S200000_d1 hr h_S_ (ix1 n)).trans ?_
  show Finset.fold (max : EReal → EReal → EReal) negInf (h ∘ hr.lift (ix1 n)) (Finset.univ : Finset (Fin 128)) = _
  exact congrArg (fun f => Finset.fold (max : EReal → EReal → EReal) negInf f (Finset.univ : Finset (Fin 128)))
    (funext fun k => congrArg h (funext fun ax => Fin.ext (by
      match ax with
      | ⟨0, _⟩ => rfl
      | ⟨1, _⟩ => rfl)))

/-- −∞ lies below every row maximum, the fold starting there. -/
theorem hostRowMax_negInf_le (v : Fin 128 → EReal) : negInf ≤ rowMax v :=
  (Finset.le_fold_max _).2 (Or.inl le_rfl)

/-- The reference's broadcast of a vector of row values `M`, first capped below by −∞: at `(n, q)` it reads
    `max (−∞) (M n)`. -/
theorem hostRowMaxB_read (M : FVec Ideal S200000 .f32) (n : Fin 200000) (q : Fin 128) :
    broadcastInDim S200000x128 ![0, 1] bcast_S200000x1_S200000x128_0_1
      (broadcastInDim S200000x1 ![0] bcast_S200000_S200000x1_0
        (maximumf (broadcastInDim S200000 ![] bcast_S_S200000 (constant S_ .f32 0xFF800000#32)) M)) (ix2 n q)
      = max negInf (M (ix1 n)) := by
  refine (Cert.LibKeepdims.broadcastInDim_a1_ab_apply _ _ n q).trans ?_
  refine (Cert.LibKeepdims.broadcastInDim_a_a1_apply _ _ n (0 : Fin 1)).trans ?_
  exact congrArg (fun c : EReal => max c (M (ix1 n))) (Cert.LibKeepdims.broadcastInDim_scalar_apply _ _ (ix1 n))

/-- Capping below by −∞ a value that already lies above it changes nothing. -/
theorem hostRowMax_cap {m r : EReal} (e : m = r) (hle : negInf ≤ r) : max negInf m = r :=
  by subst e; exact max_eq_right hle

/-- The broadcast row maxima at `(n, q)`: the maximum of row `n`. -/
theorem hostRowMaxB_apply (h : FVec Ideal S200000x128 .f32) (n : Fin 200000) (q : Fin 128) :
    hostRowMaxB (F := Ideal) h (ix2 n q) = rowMax (rowOf h n) :=
  (hostRowMaxB_read _ n q).trans (hostRowMax_cap (hostRowMax_apply h n) (hostRowMax_negInf_le _))

/-- `exp` of a difference of arrays, read at an index. -/
theorem hostShiftedExp_read (h B : FVec Ideal S200000x128 .f32) (i : S200000x128.Idx) :
    Host.exp (subf h B) i = Ideal.exp (h i - B i) := rfl

/-- The shifted exponential at `(n, k)`. -/
theorem hostShiftedExp_apply (h : FVec Ideal S200000x128 .f32) (n : Fin 200000) (k : Fin 128) :
    hostShiftedExp (F := Ideal) h (ix2 n k) = Ideal.exp (h (ix2 n k) - rowMax (rowOf h n)) :=
  (hostShiftedExp_read h (hostRowMaxB h) (ix2 n k)).trans
    (congrArg (fun m : EReal => Ideal.exp (h (ix2 n k) - m)) (hostRowMaxB_apply h n k))

/-- A quotient of arrays, read at an index. -/
theorem hostSoftmax_divf_read (E D : FVec Ideal S200000x128 .f32) (i : S200000x128.Idx) :
    Host.divf E D i = Ideal.div (E i) (D i) := rfl

/-- An array `E` divided by its row sums (from 0) broadcast back: at `(n, q)`, `E (n, q)` over the sum of row `n`. -/
theorem hostSoftmax_read (E : FVec Ideal S200000x128 .f32) (n : Fin 200000) (q : Fin 128) :
    Host.divf E
      (broadcastInDim S200000x128 ![0, 1] bcast_S200000x1_S200000x128_0_1
        (broadcastInDim S200000x1 ![0] bcast_S200000_S200000x1_0
          (Host.reduceAdd E (constant S_ .f32 0x00000000#32) reducesTo_S200000x128_S200000_d1 h_S_))) (ix2 n q)
      = Ideal.div (E (ix2 n q)) (∑ k : Fin 128, E (ix2 n k)) := by
  refine (hostSoftmax_divf_read E _ (ix2 n q)).trans ?_
  refine congrArg (Ideal.div (E (ix2 n q))) ?_
  refine (Cert.LibKeepdims.broadcastInDim_a1_ab_apply _ _ n q).trans ?_
  refine (Cert.LibKeepdims.broadcastInDim_a_a1_apply _ _ n (0 : Fin 1)).trans ?_
  refine (Cert.LibKeepdims.hostRowSum_apply E _ _ (by decide) _ n).trans ?_
  show Ideal.ofBits .f32 0x00000000#32 + _ = _
  rw [Ideal.ofBits_zero_f32, zero_add]

/-- THE REFERENCE'S SOFTMAX AT `(n, q)`: the row softmax of row `n`, at column `q`. -/
theorem hostSoftmax_apply (h : FVec Ideal S200000x128 .f32) (n : Fin 200000) (q : Fin 128) :
    hostSoftmax (F := Ideal) h (ix2 n q) = smRow (rowOf h n) q :=
  (hostSoftmax_read (hostShiftedExp h) n q).trans
    (congrArg₂ Ideal.div (hostShiftedExp_apply h n q) (Finset.sum_congr rfl fun k _ => hostShiftedExp_apply h n k))

end Cert.PathLayer

end
-- ==== Proof.RefDot.lean ====
/-
  The reference's product of the concatenated row with the weights, read at an index on the extended reals.

  Row `n` of `[X0 | X1 | X2]` (three 128-wide parts side by side, 384 wide) times column `q` of the 384 × 128 weights is
  the sum over all 384 positions; the positions 0..127 read `X0`, 128..255 read `X1`, 256..383 read `X2`, so the sum is the
  three sums over the weight matrix's three row bands. Only that addition on the extended reals is commutative and
  associative is used: nothing is distributed and nothing cancelled.
-/
import proofs.«410060_j57758720196984_3_alg».proof.Proof.Gen.ReferenceIdeal
import proofs.«410060_j57758720196984_3_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.PathLayer

open Idealize.ShloMosaic Idealize.ShloMosaic.TcCoe Idealize.ShloMosaic.ValueIdx
open Cert.ReferenceIdeal Cert.ReferenceIdeal.Gen

/-! ### The product's two operand indices, axis by axis -/

/-- The left operand's index on axis 0 is the output's row. -/
theorem dotConcat_lhs_0 (i : S100000x128.Idx) (q : dot_S100000x384_S384x128_S100000x128_1_0_0_1_n_n.contr.Idx) :
    (dot_S100000x384_S384x128_S100000x128_1_0_0_1_n_n.lhsIdx i q 0).val = (i 0).val := by
  unfold DotDims.lhsIdx
  rw [dif_neg (show ¬(0 : Fin S100000x384.rank) ∈ dot_S100000x384_S384x128_S100000x128_1_0_0_1_n_n.lhsBatch by decide), dif_pos (show (0 : Fin S100000x384.rank) ∈ dot_S100000x384_S384x128_S100000x128_1_0_0_1_n_n.lhsNonContracting by decide)]
  rfl
/-- The left operand's index on axis 1 is the contracted position. -/
theorem dotConcat_lhs_1 (i : S100000x128.Idx) (q : dot_S100000x384_S384x128_S100000x128_1_0_0_1_n_n.contr.Idx) :
    (dot_S100000x384_S384x128_S100000x128_1_0_0_1_n_n.lhsIdx i q 1).val = (q ⟨0, by decide⟩).val :=
  dot_S100000x384_S384x128_S100000x128_1_0_0_1_n_n.lhsIdx_val_of_single rfl i q
/-- The right operand's index on axis 0 is the contracted position. -/
theorem dotConcat_rhs_0 (i : S100000x128.Idx) (q : dot_S100000x384_S384x128_S100000x128_1_0_0_1_n_n.contr.Idx) :
    (dot_S100000x384_S384x128_S100000x128_1_0_0_1_n_n.rhsIdx i q 0).val = (q ⟨0, by decide⟩).val :=
  dot_S100000x384_S384x128_S100000x128_1_0_0_1_n_n.rhsIdx_val_of_single rfl i q
/-- The right operand's index on axis 1 is the output's column. -/
theorem dotConcat_rhs_1 (i : S100000x128.Idx) (q : dot_S100000x384_S384x128_S100000x128_1_0_0_1_n_n.contr.Idx) :
    (dot_S100000x384_S384x128_S100000x128_1_0_0_1_n_n.rhsIdx i q 1).val = (i 1).val := by
  unfold DotDims.rhsIdx
  rw [dif_neg (show ¬(1 : Fin S384x128.rank) ∈ dot_S100000x384_S384x128_S100000x128_1_0_0_1_n_n.rhsBatch by decide), dif_pos (show (1 : Fin S384x128.rank) ∈ dot_S100000x384_S384x128_S100000x128_1_0_0_1_n_n.rhsNonContracting by decide)]
  rfl

/-- The product of any 100000 × 384 rows with the weights at `(n, q)`: the sum over the 384 positions. -/
theorem dotConcat_sum_apply (Y : FVec Ideal S100000x384 .f32) (w : FVec Ideal S384x128 .f32) (n : Fin 100000) (q : Fin 128) :
    Host.dotGeneral (F := Ideal) dot_S100000x384_S384x128_S100000x128_1_0_0_1_n_n none Y w (ix2 n q) = ∑ k : Fin 384, Y (ix2 n k) * w (ix2 k q) := by
  simp only [Host.dotGeneral]
  rw [Ideal.dotGeneral_apply, ← Equiv.sum_comp (ValueIdx.contrEquiv1 dot_S100000x384_S384x128_S100000x128_1_0_0_1_n_n 384 rfl rfl).symm]
  refine Finset.sum_congr rfl fun k _ => ?_
  have hk := ValueIdx.contrEquiv1_symm_val dot_S100000x384_S384x128_S100000x128_1_0_0_1_n_n 384 rfl rfl k
  have el : dot_S100000x384_S384x128_S100000x128_1_0_0_1_n_n.lhsIdx (ix2 n q) ((ValueIdx.contrEquiv1 dot_S100000x384_S384x128_S100000x128_1_0_0_1_n_n 384 rfl rfl).symm k) = ix2 n k := funext fun a => Fin.ext (by
    match a with
    | ⟨0, _⟩ => exact dotConcat_lhs_0 _ _
    | ⟨1, _⟩ => exact (dotConcat_lhs_1 _ _).trans hk)
  have er : dot_S100000x384_S384x128_S100000x128_1_0_0_1_n_n.rhsIdx (ix2 n q) ((ValueIdx.contrEquiv1 dot_S100000x384_S384x128_S100000x128_1_0_0_1_n_n 384 rfl rfl).symm k) = ix2 k q := funext fun a => Fin.ext (by
    match a with
    | ⟨0, _⟩ => exact (dotConcat_rhs_0 _ _).trans hk
    | ⟨1, _⟩ => exact dotConcat_rhs_1 _ _)
  rw [el, er]

/-! ### A sum over 384 positions as three sums over 128 -/

theorem dotConcat_sum384 {M : Type*} [AddCommMonoid M] (f : Fin 384 → M) :
    ∑ k : Fin 384, f k
      = ∑ k : Fin 128, f ⟨k.val, by omega⟩ + ∑ k : Fin 128, f ⟨128 + k.val, by omega⟩
        + ∑ k : Fin 128, f ⟨256 + k.val, by omega⟩ := by
  have h1 := Fin.sum_univ_add (a := 128) (b := 256) f
  have h2 := Fin.sum_univ_add (a := 128) (b := 128) fun i : Fin (128 + 128) => f (Fin.natAdd 128 i)
  rw [h1, h2, ← add_assoc]
  refine congrArg₂ (· + ·) (congrArg₂ (· + ·) ?_ ?_) ?_
  · exact Finset.sum_congr rfl fun i _ => congrArg f (Fin.ext rfl)
  · exact Finset.sum_congr rfl fun i _ => congrArg f (Fin.ext rfl)
  · exact Finset.sum_congr rfl fun i _ => congrArg f (Fin.ext (by show 128 + (128 + i.val) = 256 + i.val; omega))

/-! ### The concatenated row at a position in each of its three parts -/

/-- A position in the first part reads `X0`. -/
theorem concat3_left_apply (X0 X1 X2 : FVec Ideal S100000x128 .f32) (n : Fin 100000) (k : Fin 128) :
    concatenate S100000x384 1 [⟨S100000x128, X0⟩, ⟨S100000x128, X1⟩, ⟨S100000x128, X2⟩] concatenates_S100000x128_S100000x128_S100000x128_S100000x384_d1
        (ix2 n (⟨k.val, by omega⟩ : Fin 384)) = X0 (ix2 n k) :=
  concatenate_apply_piece (t := S100000x384) 1 [⟨S100000x128, X0⟩, ⟨S100000x128, X1⟩, ⟨S100000x128, X2⟩] concatenates_S100000x128_S100000x128_S100000x128_S100000x384_d1
    (ix2 n (⟨k.val, by omega⟩ : Fin 384)) 0 (by simp) S100000x128 X0 rfl rfl 0 rfl (ix2 n k)
    (fun b hb => by
      match b with
      | ⟨0, _⟩ => rfl
      | ⟨1, _⟩ => exact absurd rfl hb)
    (by show 0 + k.val = k.val; omega)
/-- A position in the second part reads `X1`, 128 to the left. -/
theorem concat3_mid_apply (X0 X1 X2 : FVec Ideal S100000x128 .f32) (n : Fin 100000) (k : Fin 128) :
    concatenate S100000x384 1 [⟨S100000x128, X0⟩, ⟨S100000x128, X1⟩, ⟨S100000x128, X2⟩] concatenates_S100000x128_S100000x128_S100000x128_S100000x384_d1
        (ix2 n (⟨128 + k.val, by omega⟩ : Fin 384)) = X1 (ix2 n k) :=
  concatenate_apply_piece (t := S100000x384) 1 [⟨S100000x128, X0⟩, ⟨S100000x128, X1⟩, ⟨S100000x128, X2⟩] concatenates_S100000x128_S100000x128_S100000x128_S100000x384_d1
    (ix2 n (⟨128 + k.val, by omega⟩ : Fin 384)) 1 (by simp) S100000x128 X1 rfl rfl 128 rfl (ix2 n k)
    (fun b hb => by
      match b with
      | ⟨0, _⟩ => rfl
      | ⟨1, _⟩ => exact absurd rfl hb)
    (by show 128 + k.val = 128 + k.val; rfl)
/-- A position in the third part reads `X2`, 256 to the left. -/
theorem concat3_right_apply (X0 X1 X2 : FVec Ideal S100000x128 .f32) (n : Fin 100000) (k : Fin 128) :
    concatenate S100000x384 1 [⟨S100000x128, X0⟩, ⟨S100000x128, X1⟩, ⟨S100000x128, X2⟩] concatenates_S100000x128_S100000x128_S100000x128_S100000x384_d1
        (ix2 n (⟨256 + k.val, by omega⟩ : Fin 384)) = X2 (ix2 n k) :=
  concatenate_apply_piece (t := S100000x384) 1 [⟨S100000x128, X0⟩, ⟨S100000x128, X1⟩, ⟨S100000x128, X2⟩] concatenates_S100000x128_S100000x128_S100000x128_S100000x384_d1
    (ix2 n (⟨256 + k.val, by omega⟩ : Fin 384)) 2 (by simp) S100000x128 X2 rfl rfl 256 rfl (ix2 n k)
    (fun b hb => by
      match b with
      | ⟨0, _⟩ => rfl
      | ⟨1, _⟩ => exact absurd rfl hb)
    (by show 256 + k.val = 256 + k.val; rfl)

/-- THE PRODUCT OF THE CONCATENATED ROWS WITH THE WEIGHTS AT `(n, q)`: the three sums over the weights' row bands. -/
theorem dotConcat_apply (X0 X1 X2 : FVec Ideal S100000x128 .f32) (w : FVec Ideal S384x128 .f32) (n : Fin 100000) (q : Fin 128) :
    Host.dotGeneral (F := Ideal) dot_S100000x384_S384x128_S100000x128_1_0_0_1_n_n none
        (concatenate S100000x384 1 [⟨S100000x128, X0⟩, ⟨S100000x128, X1⟩, ⟨S100000x128, X2⟩]
          concatenates_S100000x128_S100000x128_S100000x128_S100000x384_d1) w (ix2 n q)
      = ∑ k : Fin 128, X0 (ix2 n k) * w (ix2 (⟨k.val, by omega⟩ : Fin 384) q)
        + ∑ k : Fin 128, X1 (ix2 n k) * w (ix2 (⟨128 + k.val, by omega⟩ : Fin 384) q)
        + ∑ k : Fin 128, X2 (ix2 n k) * w (ix2 (⟨256 + k.val, by omega⟩ : Fin 384) q) := by
  rw [dotConcat_sum_apply, dotConcat_sum384]
  simp only [concat3_left_apply, concat3_mid_apply, concat3_right_apply]

end Cert.PathLayer

end
-- ==== Proof.RefValue.lean ====
/-
  The reference program's result as one function of the arguments.

  The reference gathers and sums the features into 200000 segments as the kernel program does (`refSegmentSums`),
  gathers those sums (`refGathered`) and their row softmax (`refSoftGathered`) by the second index vector, sums each into
  100000 segments by the first (`refRowSums`), lays the features and the two sums side by side, multiplies by the
  weights, adds the bias and applies `z ↦ z · (1 / (1 + exp (−z)))`.
-/
import proofs.«410060_j57758720196984_3_alg».proof.Proof.Gen.ReferenceIdeal
import proofs.«410060_j57758720196984_3_alg».proof.Proof.Spec
import proofs.«410060_j57758720196984_3_alg».proof.Proof.RefSoftmax
import proofs.«410060_j57758720196984_3_alg».proof.Proof.RefDot
import proofs.«410060_j57758720196984_3_alg».proof.Proof.LibKeepdims

noncomputable section

namespace Cert.PathLayer

open Idealize.ShloMosaic Idealize.ShloMosaic.TcCoe Idealize.ShloMosaic.ValueIdx
open Cert.ReferenceIdeal Cert.ReferenceIdeal.Gen

variable {F : FTy → Type} [FloatOps F]

/-- A vector of row numbers as a column of start indices, a negative number wrapped once by the extent `n`. -/
def refWrappedCol (n : BitVec 32) (x : IVec S400000 32) : IVec S400000x1 32 :=
  broadcastInDim S400000x1 ![0] bcast_S400000_S400000x1_0
    (select (cmpi .slt x (broadcastInDim S400000 ![] bcast_S_S400000 (constantI S_ 32 0#32)))
      (addi x (broadcastInDim S400000 ![] bcast_S_S400000 (constantI S_ 32 n))) x)

/-- The segment sums of the gathered feature rows: 200000 × 128. -/
def refSegmentSums (x0 : FVec F S100000x128 .f32) (x3 x4 : IVec S400000 32) : FVec F S200000x128 .f32 :=
  Host.scatterAdd scatter_S200000x128_S400000x1_S400000x128_1_0_0_1
    (broadcastInDim S200000x128 ![] bcast_S_S200000x128 (constant S_ .f32 0x00000000#32))
    (broadcastInDim S400000x1 ![0] bcast_S400000_S400000x1_0 x4)
    (Host.gather gather_S100000x128_S400000x1_S400000x128_1_0_n_n_0_1_1128 x0 (refWrappedCol 100000#32 x3))

/-- Those sums gathered by the second index vector. -/
def refGathered (x0 : FVec F S100000x128 .f32) (x3 x4 : IVec S400000 32) : FVec F S400000x128 .f32 :=
  Host.gather gather_S200000x128_S400000x1_S400000x128_1_0_n_n_0_1_1128 (refSegmentSums x0 x3 x4) (refWrappedCol 200000#32 x4)

/-- Their row softmax gathered by the second index vector. -/
def refSoftGathered (x0 : FVec F S100000x128 .f32) (x3 x4 : IVec S400000 32) : FVec F S400000x128 .f32 :=
  Host.gather gather_S200000x128_S400000x1_S400000x128_1_0_n_n_0_1_1128 (hostSoftmax (refSegmentSums x0 x3 x4)) (refWrappedCol 200000#32 x4)

/-- 128-wide rows summed into 100000 segments by the first index vector. -/
def refRowSums (x3 : IVec S400000 32) (u : FVec F S400000x128 .f32) : FVec F S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 x3) u

/-- The product of the concatenated rows with the weights, plus the bias. -/
def refPreact (x0 : FVec F S100000x128 .f32) (x1 : FVec F S384x128 .f32) (x2 : FVec F S128 .f32) (x3 x4 : IVec S400000 32) :
    FVec F S100000x128 .f32 :=
  addf (Host.dotGeneral dot_S100000x384_S384x128_S100000x128_1_0_0_1_n_n none
      (concatenate S100000x384 1 [⟨S100000x128, x0⟩, ⟨S100000x128, refRowSums x3 (refGathered x0 x3 x4)⟩,
        ⟨S100000x128, refRowSums x3 (refSoftGathered x0 x3 x4)⟩] concatenates_S100000x128_S100000x128_S100000x128_S100000x384_d1) x1)
    (broadcastInDim S100000x128 ![0, 1] bcast_S1x128_S100000x128_0_1 (broadcastInDim S1x128 ![1] bcast_S128_S1x128_1 x2))

/-- The reference's result. -/
def refOut (x0 : FVec F S100000x128 .f32) (x1 : FVec F S384x128 .f32) (x2 : FVec F S128 .f32) (x3 x4 : IVec S400000 32) :
    FVec F S100000x128 .f32 :=
  mulf (refPreact x0 x1 x2 x3 x4)
    (Host.divf (broadcastInDim S100000x128 ![] bcast_S_S100000x128 (constant S_ .f32 0x3F800000#32))
      (addf (broadcastInDim S100000x128 ![] bcast_S_S100000x128 (constant S_ .f32 0x3F800000#32))
        (Host.exp (Host.negf (refPreact x0 x1 x2 x3 x4)))))

/-- The f32 word `0x3F800000` reads one. -/
theorem refOut_one : Ideal.ofBits .f32 0x3F800000#32 = 1 := by
  simp [Ideal.ofBits, Ideal.ieee, -EReal.coe_mul]; norm_num

/-- The constant one spread over the result's shape reads one everywhere. -/
theorem refOut_oneSpread_apply (j : S100000x128.Idx) :
    broadcastInDim S100000x128 ![] bcast_S_S100000x128 (constant (F := Ideal) S_ .f32 0x3F800000#32) j = 1 :=
  (Cert.LibKeepdims.broadcastInDim_scalar_apply _ bcast_S_S100000x128 j).trans refOut_one

/-- The bias laid as a row and spread down the rows reads, at `(n, q)`, the bias at `q`. -/
theorem refPreact_bias_apply (x2 : FVec Ideal S128 .f32) (n : Fin 100000) (q : Fin 128) :
    broadcastInDim S100000x128 ![0, 1] bcast_S1x128_S100000x128_0_1 (broadcastInDim S1x128 ![1] bcast_S128_S1x128_1 x2) (ix2 n q)
      = x2 (ix1 q) :=
  (Cert.LibKeepdims.broadcastInDim_1b_ab_apply _ bcast_S1x128_S100000x128_0_1 n q).trans
    (Cert.LibKeepdims.broadcastInDim_b_1b_apply x2 bcast_S128_S1x128_1 0 q)

/-- The product of the concatenated rows with the weights plus the bias, at `(n, q)`: the three band sums plus the bias. -/
theorem refPreact_apply (x0 : FVec Ideal S100000x128 .f32) (x1 : FVec Ideal S384x128 .f32) (x2 : FVec Ideal S128 .f32)
    (x3 x4 : IVec S400000 32) (n : Fin 100000) (q : Fin 128) :
    refPreact (F := Ideal) x0 x1 x2 x3 x4 (ix2 n q)
      = (∑ k : Fin 128, x0 (ix2 n k) * x1 (ix2 (⟨k.val, by omega⟩ : Fin 384) q)
          + ∑ k : Fin 128, refRowSums (F := Ideal) x3 (refGathered x0 x3 x4) (ix2 n k) * x1 (ix2 (⟨128 + k.val, by omega⟩ : Fin 384) q)
          + ∑ k : Fin 128, refRowSums (F := Ideal) x3 (refSoftGathered x0 x3 x4) (ix2 n k) * x1 (ix2 (⟨256 + k.val, by omega⟩ : Fin 384) q))
        + x2 (ix1 q) := by
  unfold refPreact
  rw [addf_apply]
  exact congrArg₂ (· + ·) (dotConcat_apply _ _ _ x1 n q) (refPreact_bias_apply x2 n q)

/-- THE REFERENCE'S RESULT AT `(n, q)`: `silu` of the three band sums plus the bias. -/
theorem refOut_apply (x0 : FVec Ideal S100000x128 .f32) (x1 : FVec Ideal S384x128 .f32) (x2 : FVec Ideal S128 .f32)
    (x3 x4 : IVec S400000 32) (n : Fin 100000) (q : Fin 128) :
    refOut (F := Ideal) x0 x1 x2 x3 x4 (ix2 n q)
      = silu ((∑ k : Fin 128, x0 (ix2 n k) * x1 (ix2 (⟨k.val, by omega⟩ : Fin 384) q)
          + ∑ k : Fin 128, refRowSums (F := Ideal) x3 (refGathered x0 x3 x4) (ix2 n k) * x1 (ix2 (⟨128 + k.val, by omega⟩ : Fin 384) q)
          + ∑ k : Fin 128, refRowSums (F := Ideal) x3 (refSoftGathered x0 x3 x4) (ix2 n k) * x1 (ix2 (⟨256 + k.val, by omega⟩ : Fin 384) q))
        + x2 (ix1 q)) := by
  have hz := refPreact_apply x0 x1 x2 x3 x4 n q
  unfold refOut
  show refPreact (F := Ideal) x0 x1 x2 x3 x4 (ix2 n q)
      * Ideal.div (broadcastInDim S100000x128 ![] bcast_S_S100000x128 (constant (F := Ideal) S_ .f32 0x3F800000#32) (ix2 n q))
        (broadcastInDim S100000x128 ![] bcast_S_S100000x128 (constant (F := Ideal) S_ .f32 0x3F800000#32) (ix2 n q)
          + Ideal.exp (-(refPreact (F := Ideal) x0 x1 x2 x3 x4 (ix2 n q)))) = _
  rw [refOut_oneSpread_apply, hz]
  rfl

end Cert.PathLayer

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.Bridge.lean ====
/-
  The two programs compute one function.

  Both results are `silu` of three band sums plus the bias, so it is enough that the segment sums agree entry by entry.
  A segment sum at `(n, c)` is zero plus the sum, over the rows whose index is `n`, of the update's entry in column `c`:
  columns never mix, so the kernel program's one sum of the 256-wide rows `[e r | softmax (e r)]` is, in its left half,
  the reference's sum of the rows `e r`, and in its right half the reference's sum of the rows' softmax. And the
  reference's gathered softmax is the softmax of the gathered rows, because a gather selects whole rows and the
  softmax acts on each row by itself.
-/
import proofs.«410060_j57758720196984_3_alg».proof.Proof.KernelOutApply
import proofs.«410060_j57758720196984_3_alg».proof.Proof.RefValue
import proofs.«410060_j57758720196984_3_alg».proof.Proof.LibRowGather
import proofs.«410060_j57758720196984_3_alg».proof.Proof.LibRowScatterAdd

set_option maxRecDepth 16384

noncomputable section

namespace Cert.PathLayer

open Idealize.ShloMosaic Idealize.ShloMosaic.TcCoe Idealize.ShloMosaic.ValueIdx
open Cert.KernelIdeal.GenV

/-- Both programs gather the same rows: the same operations on the same arguments. -/
theorem gathered_eq {F : FTy → Type} [FloatOps F] (x0 : FVec F Cert.ReferenceIdeal.S100000x128 .f32)
    (x3 x4 : IVec Cert.ReferenceIdeal.S400000 32) :
    gatheredRows (F := F) x0 x3 x4 = refGathered (F := F) x0 x3 x4 := rfl

/-- The kernel program's 256-wide segment sum at `(n, c)`. -/
theorem scatter256_apply (z : FVec Ideal Cert.KernelIdeal.S100000x256 .f32) (idx : IVec Cert.KernelIdeal.S400000x1 32)
    (u : FVec Ideal Cert.KernelIdeal.S400000x256 .f32) (n : Fin 100000) (c : Fin 256) :
    Host.scatterAdd (F := Ideal) Cert.KernelIdeal.scatter_S100000x256_S400000x1_S400000x256_1_0_0_1 z idx u (ix2 n c)
      = z (ix2 n c) + ∑ r : Fin 400000, if (idx (ix2 r (0 : Fin 1))).toInt = (n.val : Int) then u (ix2 r c) else 0 :=
  rowScatterAdd_apply Cert.KernelIdeal.scatter_S100000x256_S400000x1_S400000x256_1_0_0_1.wf z idx u n c

/-- The reference's 128-wide segment sum at `(n, k)`. -/
theorem scatter128_apply (z : FVec Ideal Cert.ReferenceIdeal.S100000x128 .f32) (idx : IVec Cert.ReferenceIdeal.S400000x1 32)
    (u : FVec Ideal Cert.ReferenceIdeal.S400000x128 .f32) (n : Fin 100000) (k : Fin 128) :
    Host.scatterAdd (F := Ideal) Cert.ReferenceIdeal.scatter_S100000x128_S400000x1_S400000x128_1_0_0_1 z idx u (ix2 n k)
      = z (ix2 n k) + ∑ r : Fin 400000, if (idx (ix2 r (0 : Fin 1))).toInt = (n.val : Int) then u (ix2 r k) else 0 :=
  rowScatterAdd_apply Cert.ReferenceIdeal.scatter_S100000x128_S400000x1_S400000x128_1_0_0_1.wf z idx u n k

/-- The reference's gather of rows of a 200000 × 128 array at `(r, k)`. -/
theorem gather200k_apply (x : FVec Ideal Cert.ReferenceIdeal.S200000x128 .f32) (idx : IVec Cert.ReferenceIdeal.S400000x1 32)
    (r : Fin 400000) (k : Fin 128) :
    Host.gather Cert.ReferenceIdeal.gather_S200000x128_S400000x1_S400000x128_1_0_n_n_0_1_1128 x idx (ix2 r k)
      = x (ix2 (gatherRow (N := 200000) (by omega) idx r) k) :=
  rowGather_apply (by omega) Cert.ReferenceIdeal.gather_S200000x128_S400000x1_S400000x128_1_0_n_n_0_1_1128.wf x idx r k

/-- A zero splat reads the zero word everywhere, whatever its shape. -/
theorem zeros_apply {t : Shape} (h : (⟨0, ![]⟩ : Shape).BroadcastsInDim t (![] : Fin 0 → Fin t.rank)) (j : t.Idx) :
    broadcastInDim t ![] h (constant (F := Ideal) (⟨0, ![]⟩ : Shape) .f32 0x00000000#32) j = Ideal.ofBits .f32 0x00000000#32 :=
  Cert.LibKeepdims.broadcastInDim_scalar_apply _ h j

/-- The gathered softmax is the softmax of the gathered rows. -/
theorem softGathered_apply (x0 : FVec Ideal Cert.ReferenceIdeal.S100000x128 .f32) (x3 x4 : IVec Cert.ReferenceIdeal.S400000 32)
    (r : Fin 400000) (k : Fin 128) :
    refSoftGathered (F := Ideal) x0 x3 x4 (ix2 r k) = smRow (rowOf (refGathered (F := Ideal) x0 x3 x4) r) k := by
  unfold refSoftGathered
  rw [gather200k_apply, hostSoftmax_apply]
  refine congrArg (fun v => smRow v k) (funext fun k' => ?_)
  show refSegmentSums x0 x3 x4 (ix2 _ k') = refGathered (F := Ideal) x0 x3 x4 (ix2 r k')
  unfold refGathered
  rw [gather200k_apply]

/-- The left half of the kernel program's segment sums is the reference's sum of the gathered rows. -/
theorem pairSums_left (x0 : FVec Ideal Cert.ReferenceIdeal.S100000x128 .f32) (x3 x4 : IVec Cert.ReferenceIdeal.S400000 32)
    (n : Fin 100000) (k : Fin 128) :
    pairSums x0 x3 x4 (ix2 n (⟨k.val, by omega⟩ : Fin 256))
      = refRowSums (F := Ideal) x3 (refGathered x0 x3 x4) (ix2 n k) := by
  unfold pairSums scatteredPair refRowSums
  rw [scatter256_apply, scatter128_apply, zeros_apply, zeros_apply]
  refine congrArg (_ + ·) (Finset.sum_congr rfl fun r _ => ?_)
  refine if_congr Iff.rfl ?_ rfl
  rw [packed_apply, gathered_eq]
  exact packedRow_left _ _ k rfl

/-- The right half is the reference's sum of the gathered softmax. -/
theorem pairSums_right (x0 : FVec Ideal Cert.ReferenceIdeal.S100000x128 .f32) (x3 x4 : IVec Cert.ReferenceIdeal.S400000 32)
    (n : Fin 100000) (k : Fin 128) :
    pairSums x0 x3 x4 (ix2 n (⟨128 + k.val, by omega⟩ : Fin 256))
      = refRowSums (F := Ideal) x3 (refSoftGathered x0 x3 x4) (ix2 n k) := by
  unfold pairSums scatteredPair refRowSums
  rw [scatter256_apply, scatter128_apply, zeros_apply, zeros_apply]
  refine congrArg (_ + ·) (Finset.sum_congr rfl fun r _ => ?_)
  refine if_congr Iff.rfl ?_ rfl
  rw [packed_apply, gathered_eq, softGathered_apply]
  exact packedRow_right _ _ k rfl

/-- THE TWO RESULTS ARE ONE FUNCTION of the arguments. -/
theorem kernelOut_eq_refOut (x0 : FVec Ideal Cert.ReferenceIdeal.S100000x128 .f32) (x1 : FVec Ideal Cert.ReferenceIdeal.S384x128 .f32)
    (x2 : FVec Ideal Cert.ReferenceIdeal.S128 .f32) (x3 x4 : IVec Cert.ReferenceIdeal.S400000 32) :
    kernelOut x0 x1 x2 x3 x4 = refOut (F := Ideal) x0 x1 x2 x3 x4 := by
  funext i
  obtain ⟨n, q, rfl⟩ : ∃ (n : Fin 100000) (q : Fin 128), i = ix2 n q := ⟨i 0, i 1, eq_ix2 i⟩
  rw [kernelOut_apply, refOut_apply]
  simp only [pairSums_left, pairSums_right]

end Cert.PathLayer

end
-- ==== Proof.LibNary3.lean ====
/-
  A host operation over a LITERAL family of three references (a three-piece concatenate): its result with each
  operand's contents at its own reference, so that a run's fold goes on being rewritten through the operands.
  For a family of any size the result is the operation's function of `fun k => F (xs k)`; under that binder the
  reference `![x, a, b] k` is no literal and no result lemma applies to it. Spelt with `Fin.cons` at the three
  literals, each operand's contents are named, and what the fold leaves is the composed term by β.
-/
import Idealize.ShloMosaic.Lib.StableHlo.Run

noncomputable section

namespace Idealize.ShloMosaic.StableHlo

variable {nD : Nat} {τ : Topo} {sig : RefSig} {Val : EltTy → Type}
variable {x a b y : Ref sig .tc}

/-- `nary` over three literal references: the function of the three operands' contents, each read at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for one `simp` pass: the result reference un-indexed, as the library's own primed result lemmas are. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-! The family `Fin.cons x (Fin.cons a (Fin.cons b _))` read at each of its three positions. -/

section Cons3
universe u
variable {α : Fin 3 → Sort u}

theorem cons3_zero (x : α 0) (a : α 1) (b : α 2) (e : (i : Fin 0) → α i.succ.succ.succ) :
    (Fin.cons (α := α) x (Fin.cons (α := fun i : Fin 2 => α i.succ) a (Fin.cons (α := fun i : Fin 1 => α i.succ.succ) b e))) 0 = x := rfl
theorem cons3_one (x : α 0) (a : α 1) (b : α 2) (e : (i : Fin 0) → α i.succ.succ.succ) :
    (Fin.cons (α := α) x (Fin.cons (α := fun i : Fin 2 => α i.succ) a (Fin.cons (α := fun i : Fin 1 => α i.succ.succ) b e))) 1 = a := rfl
theorem cons3_two (x : α 0) (a : α 1) (b : α 2) (e : (i : Fin 0) → α i.succ.succ.succ) :
    (Fin.cons (α := α) x (Fin.cons (α := fun i : Fin 2 => α i.succ) a (Fin.cons (α := fun i : Fin 1 => α i.succ.succ) b e))) 2 = b := rfl

end Cons3

end Idealize.ShloMosaic.StableHlo

end
-- ==== Proof.RefRun.lean ====
/-
  The reference program's run, with its result named.

  The program is a straight line of 147 host operations. Every weakly fair execution ends with each buffer at the fold
  of the operations over the launch contents; the result buffer's fold is read in two stretches, cut before the
  concatenation: over ANY contents the last fourteen operations leave `refOutOf` of five buffers (the features, the two
  segment sums, the weights, the bias), and the operations before the cut leave those five at the arguments and at the
  two segment sums `refRowSums`. Together: the result is `refOut` of the arguments.
-/
import proofs.«410060_j57758720196984_3_alg».proof.Proof.RefRunPatched
import proofs.«410060_j57758720196984_3_alg».proof.Proof.RefValue
import proofs.«410060_j57758720196984_3_alg».proof.Proof.LibNary3

noncomputable section

namespace Cert.ReferenceIdeal.RunV

open Cert.ReferenceIdeal Cert.ReferenceIdeal.Gen Cert.ReferenceIdeal.ValueP Cert.PathLayer
open Idealize.ShloMosaic Idealize.ShloMosaic.TcCoe Idealize.SL.Sem Idealize.ShloMosaic.StableHlo

variable {F : FTy → Type} [FloatOps F]

/-- The fold over a list is the fold over its tail from the fold over its head. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The fold cut at any position. -/
theorem after_cut (n : Nat) (l : List (HloOp τ sig (Elt F))) (V : Valuation τ sig (Elt F)) :
    after l V = after (l.drop n) (after (l.take n) V) := by
  rw [← after_append', List.take_append_drop]

/-- The last stretch as a function of the five arrays it reads. -/
def refOutOf (x0 a b : FVec F S100000x128 .f32) (x1 : FVec F S384x128 .f32) (x2 : FVec F S128 .f32) : FVec F S100000x128 .f32 :=
  mulf (addf (Host.dotGeneral dot_S100000x384_S384x128_S100000x128_1_0_0_1_n_n none
        (concatenate S100000x384 1 [⟨S100000x128, x0⟩, ⟨S100000x128, a⟩, ⟨S100000x128, b⟩] concatenates_S100000x128_S100000x128_S100000x128_S100000x384_d1) x1)
      (broadcastInDim S100000x128 ![0, 1] bcast_S1x128_S100000x128_0_1 (broadcastInDim S1x128 ![1] bcast_S128_S1x128_1 x2)))
    (Host.divf (broadcastInDim S100000x128 ![] bcast_S_S100000x128 (constant S_ .f32 0x3F800000#32))
      (addf (broadcastInDim S100000x128 ![] bcast_S_S100000x128 (constant S_ .f32 0x3F800000#32))
        (Host.exp (Host.negf (addf (Host.dotGeneral dot_S100000x384_S384x128_S100000x128_1_0_0_1_n_n none
          (concatenate S100000x384 1 [⟨S100000x128, x0⟩, ⟨S100000x128, a⟩, ⟨S100000x128, b⟩] concatenates_S100000x128_S100000x128_S100000x128_S100000x384_d1) x1)
          (broadcastInDim S100000x128 ![0, 1] bcast_S1x128_S100000x128_0_1 (broadcastInDim S1x128 ![1] bcast_S128_S1x128_1 x2)))))))

set_option maxRecDepth 8192 in
set_option maxHeartbeats 4000000 in
/-- The last fourteen operations, over any contents. -/
theorem tail_result (W : Valuation τ sig (Elt F)) :
    after ((ops (F := F)).drop 133) W (Proc.tc.devRef main_v108)
      = refOutOf (W (Proc.tc.devRef main_arg0)) (W (Proc.tc.devRef main_v102)) (W (Proc.tc.devRef main_v92))
          (W (Proc.tc.devRef main_arg1)) (W (Proc.tc.devRef main_arg2)) := by
  simp only [ops, List.drop_succ_cons, List.drop_zero]
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  first | rfl | (unfold refOutOf; rfl)

set_option maxRecDepth 8192 in
set_option maxHeartbeats 40000000 in
/-- Before the cut the second array of the concatenation holds the segment sums of the gathered rows. -/
theorem head_v102 (m : (ℓ : Loc nD τ sig) → Buf (Elt F) ℓ) (c : Dev nD) :
    after ((ops (F := F)).take 133) (launchContents m c) (Proc.tc.devRef main_v102) = refRowSums (F := F) (m ((c.tc : Thread nD τ).loc main_arg3)) (refGathered (m ((c.tc : Thread nD τ).loc main_arg0)) (m ((c.tc : Thread nD τ).loc main_arg3)) (m ((c.tc : Thread nD τ).loc main_arg4))) := by
  simp only [ops, List.take_succ_cons, List.take_zero]
  after_results_simp <;> first | rfl | (unfold refRowSums refGathered refSegmentSums refWrappedCol; rfl)

set_option maxRecDepth 8192 in
set_option maxHeartbeats 40000000 in
/-- … and the third the segment sums of their gathered softmax. -/
theorem head_v92 (m : (ℓ : Loc nD τ sig) → Buf (Elt F) ℓ) (c : Dev nD) :
    after ((ops (F := F)).take 133) (launchContents m c) (Proc.tc.devRef main_v92) = refRowSums (F := F) (m ((c.tc : Thread nD τ).loc main_arg3)) (refSoftGathered (m ((c.tc : Thread nD τ).loc main_arg0)) (m ((c.tc : Thread nD τ).loc main_arg3)) (m ((c.tc : Thread nD τ).loc main_arg4))) := by
  simp only [ops, List.take_succ_cons, List.take_zero]
  after_results_simp <;> first | rfl | (unfold refRowSums refSoftGathered hostSoftmax hostShiftedExp hostRowMaxB refSegmentSums refWrappedCol; rfl)

set_option maxRecDepth 8192 in
set_option maxHeartbeats 40000000 in
/-- The features are written by no operation. -/
theorem head_arg0 (m : (ℓ : Loc nD τ sig) → Buf (Elt F) ℓ) (c : Dev nD) :
    after ((ops (F := F)).take 133) (launchContents m c) (Proc.tc.devRef main_arg0) = (m ((c.tc : Thread nD τ).loc main_arg0)) := by
  simp only [ops, List.take_succ_cons, List.take_zero]
  after_results_simp <;> first | rfl | (skip; rfl)

set_option maxRecDepth 8192 in
set_option maxHeartbeats 40000000 in
/-- Nor are the weights. -/
theorem head_arg1 (m : (ℓ : Loc nD τ sig) → Buf (Elt F) ℓ) (c : Dev nD) :
    after ((ops (F := F)).take 133) (launchContents m c) (Proc.tc.devRef main_arg1) = (m ((c.tc : Thread nD τ).loc main_arg1)) := by
  simp only [ops, List.take_succ_cons, List.take_zero]
  after_results_simp <;> first | rfl | (skip; rfl)

set_option maxRecDepth 8192 in
set_option maxHeartbeats 40000000 in
/-- Nor is the bias. -/
theorem head_arg2 (m : (ℓ : Loc nD τ sig) → Buf (Elt F) ℓ) (c : Dev nD) :
    after ((ops (F := F)).take 133) (launchContents m c) (Proc.tc.devRef main_arg2) = (m ((c.tc : Thread nD τ).loc main_arg2)) := by
  simp only [ops, List.take_succ_cons, List.take_zero]
  after_results_simp <;> first | rfl | (skip; rfl)

/-- The result buffer's fold: `refOut` of the arguments. -/
theorem result_eq (m : (ℓ : Loc nD τ sig) → Buf (Elt F) ℓ) (c : Dev nD) :
    after (ops (F := F)) (launchContents m c) (Proc.tc.devRef main_v108)
      = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [after_cut 133, tail_result, head_v102, head_v92, head_arg0, head_arg1, head_arg2]
  rfl

set_option maxRecDepth 8192 in
set_option maxHeartbeats 58800000 in
/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v108).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RunV

end
-- ==== Proof.lean ====
/-
  A message-passing layer over a hierarchy of node sets, against its reference, on the extended reals.

  Both programs gather rows of the features by the first index vector and sum them into 200000 segments by the second
  (the same host operations on the same arguments). The kernel program then gathers those sums by the second index
  vector, writes beside each gathered row its softmax in one launch, sums the 256-wide rows into 100000 segments by the
  first index vector, and in a second launch multiplies the features and the two halves of those sums by the three row
  bands of the weights, adds the bias and applies `z ↦ z · logistic z`. The reference takes the softmax of the segment
  sums first and gathers it, sums the gathered rows and the gathered softmax separately, lays the features and the two
  sums side by side, multiplies by the weights once, adds the bias and applies `z ↦ z · (1 / (1 + exp (−z)))`.

  The two are one function of the arguments: a gather selects whole rows, so the softmax of a gathered row is the
  gathered softmax; a segment sum never mixes columns, so the sum of rows laid side by side is the sums side by side;
  the product of a concatenated row is the sum of the products over the row bands (addition on the extended reals is
  commutative and associative; nothing is distributed or cancelled, so no finiteness is used); and `logistic z` is
  `1 / (1 + exp (−z))` by definition. The programs' frames are the generated ones; the reference's is its run with the
  result dropped. No rewrite was made when the kernel program was idealized, so that conjunct is trivial.
-/
import proofs.«410060_j57758720196984_3_alg».proof.Defs
import proofs.«410060_j57758720196984_3_alg».proof.Proof.Gen.Kernel
import proofs.«410060_j57758720196984_3_alg».proof.Proof.Gen.Kernel.Skeleton
import proofs.«410060_j57758720196984_3_alg».proof.Proof.Gen.Kernel.Launch
import proofs.«410060_j57758720196984_3_alg».proof.Proof.Gen.Kernel.Points
import proofs.«410060_j57758720196984_3_alg».proof.Proof.Gen.Kernel.Frame
import proofs.«410060_j57758720196984_3_alg».proof.Proof.Gen.KernelIdeal
import proofs.«410060_j57758720196984_3_alg».proof.Proof.Gen.KernelIdeal.Skeleton
import proofs.«410060_j57758720196984_3_alg».proof.Proof.Gen.KernelIdeal.Launch
import proofs.«410060_j57758720196984_3_alg».proof.Proof.Gen.KernelIdeal.Points
import proofs.«410060_j57758720196984_3_alg».proof.Proof.Gen.KernelIdeal.Frame
import proofs.«410060_j57758720196984_3_alg».proof.Proof.Gen.ReferenceIdeal
import proofs.«410060_j57758720196984_3_alg».proof.Proof.Gen.Pre_finite_inputs
import proofs.«410060_j57758720196984_3_alg».proof.Proof.KernelRunValued
import proofs.«410060_j57758720196984_3_alg».proof.Proof.KernelValue
import proofs.«410060_j57758720196984_3_alg».proof.Proof.Bridge
import proofs.«410060_j57758720196984_3_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunV.run (F := Ideal) m ρ)

/-- The idealization rewrote nothing. -/
theorem preserves : Cert.preserves_Kernel_KernelIdeal := trivial

/-- From memories agreeing on the arguments both programs end with the result at `kernelOut` of the kernel program's
    arguments: the kernel program by its two launches read as whole-array functions, the reference by its run, and the two
    functions are one. -/
theorem algebraic : Cert.algebraic_KernelIdeal_ReferenceIdeal := by
  intro m ρ m' ρ' _ hagree
  refine ⟨fun c => Cert.KernelIdeal.GenV.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.GenV.W4_result m ρ c), (h c).2⟩)
      (Cert.KernelIdeal.GenV.run_valued (F := Ideal) m ρ)
  · refine (θ_run Cert.ReferenceIdeal.defs _ _).mono (fun _ h c => ⟨(h c).1.trans ?_, (h c).2⟩)
      (Cert.ReferenceIdeal.RunV.run (F := Ideal) m' ρ')
    obtain ⟨e0, e1, e2, e3, e4, -⟩ := hagree c
    rw [e0, e1, e2, e3, e4]
    exact (Cert.PathLayer.kernelOut_eq_refOut _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
